-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x8 : Shape := ⟨3, ![2, 256, 8]⟩
abbrev S2x2818048 : Shape := ⟨2, ![2, 2818048]⟩
abbrev S11008x1 : Shape := ⟨2, ![11008, 1]⟩
abbrev S4096x32 : Shape := ⟨2, ![4096, 32]⟩
abbrev S32x11008 : Shape := ⟨2, ![32, 11008]⟩
abbrev S_ : Shape := ⟨0, ![]⟩

class Facts : Prop where
  bcast_S_S2x256x8 : S_.BroadcastsInDim S2x256x8 (![] : Fin 0 → Fin S2x256x8.rank)
  reducesTo_S2x256x8_S_d0_1_2 : S2x256x8.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S4096x32 : S_.BroadcastsInDim S4096x32 (![] : Fin 0 → Fin S4096x32.rank)
  reducesTo_S4096x32_S_d0_1 : S4096x32.ReducesTo [0, 1] S_
  bcast_S_S32x11008 : S_.BroadcastsInDim S32x11008 (![] : Fin 0 → Fin S32x11008.rank)
  reducesTo_S32x11008_S_d0_1 : S32x11008.ReducesTo [0, 1] S_
  bcast_S_S2x2818048 : S_.BroadcastsInDim S2x2818048 (![] : Fin 0 → Fin S2x2818048.rank)
  reducesTo_S2x2818048_S_d0_1 : S2x2818048.ReducesTo [0, 1] S_

variable [Facts]

def fn_part1 {F : FTy → Type} [FloatOps F] (main_arg1 : IVec S2x2818048 32) (main_v13 : IVec S_ 1) (main_v16 : IVec S32x11008 1) : IVec S_ 1 :=
  let main_c_5 : IVec S_ 1 := constantI S_ 1 1#1
  let main_v17 : IVec S_ 1 := (fun x v => Host.reduce IntOp.andi x v reducesTo_S32x11008_S_d0_1 h_S_) main_v16 main_c_5
  let main_v18 : IVec S_ 1 := andi main_v13 main_v17
  let main_c_6 : IVec S_ 32 := constantI S_ 32 0#32
  let main_v19 : IVec S2x2818048 32 := broadcastInDim S2x2818048 ![] bcast_S_S2x2818048 main_c_6
  let main_v20 : IVec S2x2818048 1 := cmpi .sge main_arg1 main_v19
  let main_c_7 : IVec S_ 1 := constantI S_ 1 1#1
  let main_v21 : IVec S_ 1 := (fun x v => Host.reduce IntOp.andi x v reducesTo_S2x2818048_S_d0_1 h_S_) main_v20 main_c_7
  let main_v22 : IVec S_ 1 := andi main_v18 main_v21
  let main_c_8 : IVec S_ 32 := constantI S_ 32 256#32
  let main_v23 : IVec S2x2818048 32 := broadcastInDim S2x2818048 ![] bcast_S_S2x2818048 main_c_8
  let main_v24 : IVec S2x2818048 1 := cmpi .slt main_arg1 main_v23
  let main_c_9 : IVec S_ 1 := constantI S_ 1 1#1
  let main_v25 : IVec S_ 1 := (fun x v => Host.reduce IntOp.andi x v reducesTo_S2x2818048_S_d0_1 h_S_) main_v24 main_c_9
  let main_v26 : IVec S_ 1 := andi main_v22 main_v25
  main_v26

def fn {F : FTy → Type} [FloatOps F] (main_arg0 : FVec F S2x256x8 .f32) (main_arg1 : IVec S2x2818048 32) (main_arg2 : FVec F S11008x1 .f32) (main_arg3 : FVec F S4096x32 .f32) (main_arg4 : FVec F S32x11008 .f32) : IVec S_ 1 :=
  let main_v0 : FVec F S2x256x8 .f32 := Host.absf main_arg0
  let main_cst : FVec F S_ .f32 := constant S_ .f32 0x7F800000#32
  let main_v1 : FVec F S2x256x8 .f32 := broadcastInDim S2x256x8 ![] bcast_S_S2x256x8 main_cst
  let main_v2 : IVec S2x256x8 1 := cmpf .olt main_v0 main_v1
  let main_c : IVec S_ 1 := constantI S_ 1 1#1
  let main_v3 : IVec S_ 1 := (fun x v => Host.reduce IntOp.andi x v reducesTo_S2x256x8_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x11008 .f32 := Host.absf main_arg4
  let main_cst_4 : FVec F S_ .f32 := constant S_ .f32 0x7F800000#32
  let main_v15 : FVec F S32x11008 .f32 := broadcastInDim S32x11008 ![] bcast_S_S32x11008 main_cst_4
  let main_v16 : IVec S32x11008 1 := cmpf .olt main_v14 main_v15
  fn_part1 (F := F) main_arg1 main_v13 main_v16
-- ==== Kernel.lean ====
abbrev S2x256x8 : Shape := ⟨3, ![2, 256, 8]⟩
abbrev S2x2818048 : Shape := ⟨2, ![2, 2818048]⟩
abbrev S11008x1 : Shape := ⟨2, ![11008, 1]⟩
abbrev S4096x32 : Shape := ⟨2, ![4096, 32]⟩
abbrev S32x11008 : Shape := ⟨2, ![32, 11008]⟩
abbrev S_ : Shape := ⟨0, ![]⟩
abbrev S2x16x16x8 : Shape := ⟨4, ![2, 16, 16, 8]⟩
abbrev S2x16x128 : Shape := ⟨3, ![2, 16, 128]⟩
abbrev S2x1x2818048 : Shape := ⟨3, ![2, 1, 2818048]⟩
abbrev S5636096x8 : Shape := ⟨2, ![5636096, 8]⟩
abbrev S1x16x128 : Shape := ⟨3, ![1, 16, 128]⟩
abbrev S1x1x16384 : Shape := ⟨3, ![1, 1, 16384]⟩
abbrev S32x1 : Shape := ⟨2, ![32, 1]⟩
abbrev S16384x8 : Shape := ⟨2, ![16384, 8]⟩
abbrev S16x128 : Shape := ⟨2, ![16, 128]⟩
abbrev S1x16 : Shape := ⟨2, ![1, 16]⟩
abbrev S1x128 : Shape := ⟨2, ![1, 128]⟩
abbrev S1x1x4096 : Shape := ⟨3, ![1, 1, 4096]⟩
abbrev S4096 : Shape := ⟨1, ![4096]⟩
abbrev S4096x1 : Shape := ⟨2, ![4096, 1]⟩
abbrev S4096x16 : Shape := ⟨2, ![4096, 16]⟩
abbrev S4096x128 : Shape := ⟨2, ![4096, 128]⟩
abbrev S4096x8 : Shape := ⟨2, ![4096, 8]⟩
abbrev S8x1 : Shape := ⟨2, ![8, 1]⟩
abbrev S8x512x8 : Shape := ⟨3, ![8, 512, 8]⟩
abbrev S8x1x1 : Shape := ⟨3, ![8, 1, 1]⟩
abbrev S4096x11008 : Shape := ⟨2, ![4096, 11008]⟩
abbrev S128x11008 : Shape := ⟨2, ![128, 11008]⟩
abbrev S128x32 : Shape := ⟨2, ![128, 32]⟩

abbrev nBuf : Space → Nat
  | .hbm => 19
  | .vmem => 15
  | .smem => 0
  | _ => 0

abbrev bufTy : (tb : Table) → Fin (tcTables nBuf tb) → BufTy
  | .hbm, ⟨0, _⟩ => ⟨S2x256x8, .f32⟩
  | .hbm, ⟨1, _⟩ => ⟨S2x2818048, .i32⟩
  | .hbm, ⟨2, _⟩ => ⟨S11008x1, .f32⟩
  | .hbm, ⟨3, _⟩ => ⟨S4096x32, .f32⟩
  | .hbm, ⟨4, _⟩ => ⟨S32x11008, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S2x2818048, .i32⟩
  | .hbm, ⟨9, _⟩ => ⟨S2x2818048, .i32⟩
  | .hbm, ⟨10, _⟩ => ⟨S_, .i32⟩
  | .hbm, ⟨11, _⟩ => ⟨S2x2818048, .i32⟩
  | .hbm, ⟨12, _⟩ => ⟨S2x2818048, .i32⟩
  | .hbm, ⟨13, _⟩ => ⟨S2x16x16x8, .f32⟩
  | .hbm, ⟨14, _⟩ => ⟨S2x16x128, .f32⟩
  | .hbm, ⟨15, _⟩ => ⟨S2x1x2818048, .i32⟩
  | .hbm, ⟨16, _⟩ => ⟨S5636096x8, .f32⟩
  | .hbm, ⟨17, _⟩ => ⟨S4096x11008, .f32⟩
  | .hbm, ⟨18, _⟩ => ⟨S4096x11008, .f32⟩
  | .local _ .vmem, ⟨0, _⟩ => ⟨S1x16x128, .f32⟩
  | .local _ .vmem, ⟨1, _⟩ => ⟨S1x16x128, .f32⟩
  | .local _ .vmem, ⟨2, _⟩ => ⟨S1x1x16384, .i32⟩
  | .local _ .vmem, ⟨3, _⟩ => ⟨S1x1x16384, .i32⟩
  | .local _ .vmem, ⟨4, _⟩ => ⟨S32x1, .f32⟩
  | .local _ .vmem, ⟨5, _⟩ => ⟨S32x1, .f32⟩
  | .local _ .vmem, ⟨6, _⟩ => ⟨S16384x8, .f32⟩
  | .local _ .vmem, ⟨7, _⟩ => ⟨S16384x8, .f32⟩
  | .local _ .vmem, ⟨8, _⟩ => ⟨S128x11008, .f32⟩
  | .local _ .vmem, ⟨9, _⟩ => ⟨S128x11008, .f32⟩
  | .local _ .vmem, ⟨10, _⟩ => ⟨S128x32, .f32⟩
  | .local _ .vmem, ⟨11, _⟩ => ⟨S128x32, .f32⟩
  | .local _ .vmem, ⟨12, _⟩ => ⟨S32x11008, .f32⟩
  | .local _ .vmem, ⟨13, _⟩ => ⟨S128x11008, .f32⟩
  | .local _ .vmem, ⟨14, _⟩ => ⟨S128x11008, .f32⟩
  | _, _ => ⟨S2x256x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![86, 4], ![false, false]⟩

@[reducible] def k0_t1_loop : Scf.Loop 32 :=
  let c0_i32_6 : BitVec 32 := 0#32
  let c4_i32 : BitVec 32 := 4#32
  let v29 : BitVec 32 := Scalar.addi c0_i32_6 c4_i32
  let c1_i32_7 : BitVec 32 := 1#32
  ⟨c0_i32_6, v29, c1_i32_7⟩
def k0_mult1 (k0_t1 : Fin k0_t1_loop.trips) : BitVec 32 :=
  let c0_i32_6 : BitVec 32 := 0#32
  let c1_i32_7 : BitVec 32 := 1#32
  let arg6 : BitVec 32 := Scf.iv c0_i32_6 c1_i32_7 k0_t1
  let c4096_i32 : BitVec 32 := 4096#32
  let v30 : BitVec 32 := Scalar.muli arg6 c4096_i32
  v30
def k0_off1 (k0_t1 : Fin k0_t1_loop.trips) : Fin 3 → Nat :=
  let c0_9 : Index := 0#32
  let c0_10 : Index := 0#32
  let c0_i32_6 : BitVec 32 := 0#32
  let c1_i32_7 : BitVec 32 := 1#32
  let arg6 : BitVec 32 := Scf.iv c0_i32_6 c1_i32_7 k0_t1
  let c4096_i32 : BitVec 32 := 4096#32
  let v30 : BitVec 32 := Scalar.muli arg6 c4096_i32
  let v31 : BitVec 32 := v30
  let v32 : Index := Scalar.indexCast v31
  ![0, 0, v32.toNat]
def k0_mult2 (k0_t1 : Fin k0_t1_loop.trips) : BitVec 32 :=
  let c0_i32_6 : BitVec 32 := 0#32
  let c1_i32_7 : BitVec 32 := 1#32
  let arg6 : BitVec 32 := Scf.iv c0_i32_6 c1_i32_7 k0_t1
  let c8_i32_13 : BitVec 32 := 8#32
  let v62 : BitVec 32 := Scalar.muli arg6 c8_i32_13
  v62
def k0_off2 (k0_t1 : Fin k0_t1_loop.trips) : Fin 2 → Nat :=
  let c0_i32_6 : BitVec 32 := 0#32
  let c1_i32_7 : BitVec 32 := 1#32
  let arg6 : BitVec 32 := Scf.iv c0_i32_6 c1_i32_7 k0_t1
  let c8_i32_13 : BitVec 32 := 8#32
  let v62 : BitVec 32 := Scalar.muli arg6 c8_i32_13
  let v63 : BitVec 32 := v62
  let v64 : Index := Scalar.indexCast v63
  let c0_14 : Index := 0#32
  ![v64.toNat, 0]
def k0_mult3 (k0_t1 : Fin k0_t1_loop.trips) : BitVec 32 :=
  let c0_i32_6 : BitVec 32 := 0#32
  let c1_i32_7 : BitVec 32 := 1#32
  let arg6 : BitVec 32 := Scf.iv c0_i32_6 c1_i32_7 k0_t1
  let c4096_i32_15 : BitVec 32 := 4096#32
  let v71 : BitVec 32 := Scalar.muli arg6 c4096_i32_15
  v71
def k0_off3 (k0_t1 : Fin k0_t1_loop.trips) : Fin 2 → Nat :=
  let c0_i32_6 : BitVec 32 := 0#32
  let c1_i32_7 : BitVec 32 := 1#32
  let arg6 : BitVec 32 := Scf.iv c0_i32_6 c1_i32_7 k0_t1
  let c4096_i32_15 : BitVec 32 := 4096#32
  let v71 : BitVec 32 := Scalar.muli arg6 c4096_i32_15
  let v72 : BitVec 32 := v71
  let v73 : Index := Scalar.indexCast v72
  let c0_16 : Index := 0#32
  ![v73.toNat, 0]
def cc0_transform_0 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.divsi arg0 c43_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c43_i32 c0_i32_1
  let v7 : BitVec 32 := Scalar.extui v6
  let c0_i32_2 : BitVec 32 := 0#32
  let v8 : BitVec 1 := Scalar.cmpi .slt c43_i32 c0_i32_2
  let v9 : BitVec 32 := Scalar.extui v8
  let v10 : BitVec 32 := Scalar.subi v7 v9
  let v11 : BitVec 1 := Scalar.cmpi .ne v5 v10
  let v12 : BitVec 32 := Scalar.remsi arg0 c43_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.divsi arg0 c43_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c43_i32 c0_i32_1
  let v7 : BitVec 32 := Scalar.extui v6
  let c0_i32_2 : BitVec 32 := 0#32
  let v8 : BitVec 1 := Scalar.cmpi .slt c43_i32 c0_i32_2
  let v9 : BitVec 32 := Scalar.extui v8
  let v10 : BitVec 32 := Scalar.subi v7 v9
  let v11 : BitVec 1 := Scalar.cmpi .ne v5 v10
  let v12 : BitVec 32 := Scalar.remsi arg0 c43_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c43_i32_4 : BitVec 32 := 43#32
  let c0_i32_5 : BitVec 32 := 0#32
  let v17 : BitVec 1 := Scalar.cmpi .eq c43_i32_4 c0_i32_5
  let c1_i32_6 : BitVec 32 := 1#32
  let v18 : BitVec 32 := Scalar.select v17 c1_i32_6 c43_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let v28 : BitVec 32 := Scalar.addi v27 arg1
  let c0_i32_10 : BitVec 32 := 0#32
  let c0_i32_11 : BitVec 32 := 0#32
  ![v16.toNat, c0_i32_10.toNat, v28.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16384x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x11008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x11008 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x11008 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2x2818048 : S_.BroadcastsInDim S2x2818048 (![] : Fin 0 → Fin S2x2818048.rank)
  shapeCasts_S2x256x8_S2x16x16x8 : S2x256x8.ShapeCasts S2x16x16x8
  shapeCasts_S2x16x16x8_S2x16x128 : S2x16x16x8.ShapeCasts S2x16x128
  shapeCasts_S2x2818048_S2x1x2818048 : S2x2818048.ShapeCasts S2x1x2818048
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  bitsLt_bf16_f32 : FTy.bits .bf16 < FTy.bits .f32
  iota_S1x16_d1_w32 : S1x16.Iotas .tc 32 [1]
  iota_S1x128_d1_w32 : S1x128.Iotas .tc 32 [1]
  natLt_1_32 : 1 < 32
  h_S1x1x4096 : 0 < S1x1x4096.numel
  shapeCasts_S1x1x4096_S4096 : S1x1x4096.ShapeCasts S4096
  shapeCasts_S4096_S4096x1 : S4096.ShapeCasts S4096x1
  broadcasts_S4096x1_S4096x16 : S4096x1.Broadcasts S4096x16
  broadcasts_S1x16_S4096x16 : S1x16.Broadcasts S4096x16
  broadcasts_S1x128_S4096x128 : S1x128.Broadcasts S4096x128
  broadcasts_S4096x1_S4096x128 : S4096x1.Broadcasts S4096x128
  rotates_S4096x128_d1 : S4096x128.Rotates 1 none
  slices_S4096x128_o0_0_S4096x8 : S4096x128.Slices ![0, 0] S4096x8
  h_S8x1 : 0 < S8x1.numel
  shapeCasts_S4096x8_S8x512x8 : S4096x8.ShapeCasts S8x512x8
  shapeCasts_S8x1_S8x1x1 : S8x1.ShapeCasts S8x1x1
  broadcasts_S8x1x1_S8x512x8 : S8x1x1.Broadcasts S8x512x8
  shapeCasts_S8x512x8_S4096x8 : S8x512x8.ShapeCasts S4096x8
  h_S4096x8 : 0 < S4096x8.numel
  shapeCasts_S5636096x8_S4096x11008 : S5636096x8.ShapeCasts S4096x11008
  inb_S128x32_S128x32_0_0 : ∀ a, (![0, 0] : Fin 2 → Nat) a + S128x32.size a ≤ S128x32.size a
  h_S128x32 : 0 < S128x32.numel
  inb_S32x11008_S32x11008_0_0 : ∀ a, (![0, 0] : Fin 2 → Nat) a + S32x11008.size a ≤ S32x11008.size a
  h_S32x11008 : 0 < S32x11008.numel
  inb_S128x11008_S128x11008_0_0 : ∀ a, (![0, 0] : Fin 2 → Nat) a + S128x11008.size a ≤ S128x11008.size a
  h_S128x11008 : 0 < S128x11008.numel
  shapeCasts_S128x11008_S128x11008 : S128x11008.ShapeCasts S128x11008
  dot_S4096x16_S16x128_S4096x128_1_0_0_1_n_n_wf : DotDims.WF S4096x16 S16x128 S4096x128 [1] [0] [0] [1] [] []
  dot_S128x32_S32x11008_S128x11008_1_0_0_1_n_n_wf : DotDims.WF S128x32 S32x11008 S128x11008 [1] [0] [0] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S1x1x4096.size a ≤ S1x1x16384.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S8x1.size a ≤ S32x1.size a
  k0_mult3_dvd : ∀ k0_t1 : Fin k0_t1_loop.trips, 4096 ∣ (k0_mult3 k0_t1).toNat
  k0_off3_inb : ∀ k0_t1 : Fin k0_t1_loop.trips, ∀ a, (k0_off3 k0_t1) a + S4096x8.size a ≤ S16384x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S2x16x128.size a
  hwx0_0 : ∀ i : grid0.Coords, EltTy.bits .f32 = 32 ∨ (Rect.block (s := S2x16x128) S1x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S2x1x2818048.size a
  hwx0_1 : ∀ i : grid0.Coords, EltTy.bits .i32 = 32 ∨ (Rect.block (s := S2x1x2818048) S1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S11008x1.size a
  hwx0_2 : ∀ i : grid0.Coords, EltTy.bits .f32 = 32 ∨ (Rect.block (s := S11008x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x8.size a ≤ S5636096x8.size a
  hwx0_3 : ∀ i : grid0.Coords, EltTy.bits .f32 = 32 ∨ (Rect.block (s := S5636096x8) S16384x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x11008.size a ≤ S4096x11008.size a
  hwx1_0 : ∀ i : grid1.Coords, EltTy.bits .f32 = 32 ∨ (Rect.block (s := S4096x11008) S128x11008.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S4096x32.size a
  hwx1_1 : ∀ i : grid1.Coords, EltTy.bits .f32 = 32 ∨ (Rect.block (s := S4096x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x11008.size a ≤ S32x11008.size a
  hwx1_2 : ∀ i : grid1.Coords, EltTy.bits .f32 = 32 ∨ (Rect.block (s := S32x11008) S32x11008.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x11008.size a ≤ S4096x11008.size a
  hwx1_3 : ∀ i : grid1.Coords, EltTy.bits .f32 = 32 ∨ (Rect.block (s := S4096x11008) S128x11008.size (cc1_transform_3 i) (hinb1_3 i)).WholeWords (EltTy.packing .f32)

variable [Facts₀]

def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S128x32_S32x11008_S128x11008_1_0_0_1_n_n : DotDims S128x32 S32x11008 S128x11008 where
  lhsContracting := [1]
  rhsContracting := [0]
  lhsNonContracting := [0]
  rhsNonContracting := [1]
  lhsBatch := []
  rhsBatch := []
  wf := dot_S128x32_S32x11008_S128x11008_1_0_0_1_n_n_wf

abbrev win0_0 : Pipeline.Window sig grid0 :=
  Pipeline.Window.ofSpec (Memref.whole main_v2) S1x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16384x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S128x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x11008.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x11008.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x256x8 : Shape := ⟨3, ![2, 256, 8]⟩
abbrev S2x2818048 : Shape := ⟨2, ![2, 2818048]⟩
abbrev S11008x1 : Shape := ⟨2, ![11008, 1]⟩
abbrev S4096x32 : Shape := ⟨2, ![4096, 32]⟩
abbrev S32x11008 : Shape := ⟨2, ![32, 11008]⟩
abbrev S_ : Shape := ⟨0, ![]⟩
abbrev S2x2818048x1 : Shape := ⟨3, ![2, 2818048, 1]⟩
abbrev S2x2818048x8 : Shape := ⟨3, ![2, 2818048, 8]⟩
abbrev S11008x4096 : Shape := ⟨2, ![11008, 4096]⟩
abbrev S4096x11008 : Shape := ⟨2, ![4096, 11008]⟩

abbrev nBuf : Space → Nat
  | .hbm => 20
  | .vmem => 0
  | .smem => 0
  | _ => 0

abbrev bufTy : (tb : Table) → Fin (tcTables nBuf tb) → BufTy
  | .hbm, ⟨0, _⟩ => ⟨S2x256x8, .f32⟩
  | .hbm, ⟨1, _⟩ => ⟨S2x2818048, .i32⟩
  | .hbm, ⟨2, _⟩ => ⟨S11008x1, .f32⟩
  | .hbm, ⟨3, _⟩ => ⟨S4096x32, .f32⟩
  | .hbm, ⟨4, _⟩ => ⟨S32x11008, .f32⟩
  | .hbm, ⟨5, _⟩ => ⟨S_, .i32⟩
  | .hbm, ⟨6, _⟩ => ⟨S2x2818048, .i32⟩
  | .hbm, ⟨7, _⟩ => ⟨S2x2818048, .i1⟩
  | .hbm, ⟨8, _⟩ => ⟨S_, .i32⟩
  | .hbm, ⟨9, _⟩ => ⟨S2x2818048, .i32⟩
  | .hbm, ⟨10, _⟩ => ⟨S2x2818048, .i32⟩
  | .hbm, ⟨11, _⟩ => ⟨S2x2818048, .i32⟩
  | .hbm, ⟨12, _⟩ => ⟨S2x2818048x1, .i32⟩
  | .hbm, ⟨13, _⟩ => ⟨S2x2818048x8, .f32⟩
  | .hbm, ⟨14, _⟩ => ⟨S11008x4096, .f32⟩
  | .hbm, ⟨15, _⟩ => ⟨S11008x4096, .f32⟩
  | .hbm, ⟨16, _⟩ => ⟨S11008x4096, .f32⟩
  | .hbm, ⟨17, _⟩ => ⟨S4096x11008, .f32⟩
  | .hbm, ⟨18, _⟩ => ⟨S4096x11008, .f32⟩
  | .hbm, ⟨19, _⟩ => ⟨S4096x11008, .f32⟩
  | _, _ => ⟨S2x256x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S2x2818048 : S_.BroadcastsInDim S2x2818048 (![] : Fin 0 → Fin S2x2818048.rank)
  bcast_S2x2818048_S2x2818048x1_0_1 : S2x2818048.BroadcastsInDim S2x2818048x1 (![0, 1] : Fin 2 → Fin S2x2818048x1.rank)
  shapeCasts_S2x2818048x8_S11008x4096 : S2x2818048x8.ShapeCasts S11008x4096
  bcast_S11008x1_S11008x4096_0_1 : S11008x1.BroadcastsInDim S11008x4096 (![0, 1] : Fin 2 → Fin S11008x4096.rank)
  shapeCasts_S11008x4096_S4096x11008 : S11008x4096.ShapeCasts S4096x11008
  gather_S2x256x8_S2x2818048x1_S2x2818048x8_2_1_0_0_1_2_118_wf : GatherDims.WF S2x256x8 S2x2818048x1 S2x2818048x8 [2] [1] [0] [1] [0] 2 ![1, 1, 8]
  dot_S4096x32_S32x11008_S4096x11008_1_0_0_1_n_n_wf : DotDims.WF S4096x32 S32x11008 S4096x11008 [1] [0] [0] [1] [] []

variable [Facts₀]

def gather_S2x256x8_S2x2818048x1_S2x2818048x8_2_1_0_0_1_2_118 : GatherDims S2x256x8 S2x2818048x1 S2x2818048x8 where
  offsetDims := [2]
  collapsedSliceDims := [1]
  operandBatchingDims := [0]
  startIndicesBatchingDims := [0]
  startIndexMap := [1]
  indexVectorDim := 2
  sliceSizes := ![1, 1, 8]
  wf := gather_S2x256x8_S2x2818048x1_S2x2818048x8_2_1_0_0_1_2_118_wf
def dot_S4096x32_S32x11008_S4096x11008_1_0_0_1_n_n : DotDims S4096x32 S32x11008 S4096x11008 where
  lhsContracting := [1]
  rhsContracting := [0]
  lhsNonContracting := [0]
  rhsNonContracting := [1]
  lhsBatch := []
  rhsBatch := []
  wf := dot_S4096x32_S32x11008_S4096x11008_1_0_0_1_n_n_wf

class Facts : Prop extends Facts₀ where

variable [Facts]
-- ==== Proof.Spec.lean ====
/-
  The value both programs compute, as ONE function of the five argument arrays, entry by entry, on the extended reals.

  The weight is stored as 5,636,096 codes of 8 numbers each: code number `q` (counted row-major over the two codebooks'
  code arrays, 2,818,048 codes per codebook) selects row `codes[q / 2818048, q % 2818048]` of codebook `q / 2818048`,
  and the 8 numbers of that row are scaled by `scales[q / 512]` (512 codes, 4096 numbers, share a scale).  Read row-major
  as a 4096 x 11008 matrix, entry `(i, j)` is number `(i * 11008 + j) % 8` of code `(i * 11008 + j) / 8`; the result adds
  the rank-32 product `L · R` to it.  A code is read modulo 256, so that the function is total: on the domain where every
  code lies in [0, 256) the reduction changes nothing.
-/
import Idealize.ShloMosaic.Lib.ValueIdx
import Idealize.ShloMosaic.PureOps.Ideal

noncomputable section

open scoped BigOperators

namespace Cert.Spec

open Idealize.ShloMosaic Idealize.ShloMosaic.ValueIdx

/-- Number `c` of code `q` after scaling: row `codes[q / 2818048, q % 2818048]` of codebook `q / 2818048`, times
    `scales[q / 512]`. -/
def deq (cb : (⟨3, ![2, 256, 8]⟩ : Shape).Idx → EReal) (codes : (⟨2, ![2, 2818048]⟩ : Shape).Idx → BitVec 32)
    (sc : (⟨2, ![11008, 1]⟩ : Shape).Idx → EReal) (q : Fin 5636096) (c : Fin 8) : EReal :=
  cb (ix3 (⟨q.val / 2818048, by have := q.isLt; omega⟩ : Fin 2)
        (⟨(codes (ix2 (⟨q.val / 2818048, by have := q.isLt; omega⟩ : Fin 2)
            (⟨q.val % 2818048, Nat.mod_lt _ (by decide)⟩ : Fin 2818048))).toNat % 256, Nat.mod_lt _ (by decide)⟩ : Fin 256) c)
    * sc (ix2 (⟨q.val / 512, by have := q.isLt; omega⟩ : Fin 11008) (0 : Fin 1))

/-- Entry `(i, j)` of the result: the de-quantized weight read row-major as 4096 x 11008, plus `(L · R)[i, j]`. -/
def G (cb : (⟨3, ![2, 256, 8]⟩ : Shape).Idx → EReal) (codes : (⟨2, ![2, 2818048]⟩ : Shape).Idx → BitVec 32)
    (sc : (⟨2, ![11008, 1]⟩ : Shape).Idx → EReal) (L : (⟨2, ![4096, 32]⟩ : Shape).Idx → EReal)
    (R : (⟨2, ![32, 11008]⟩ : Shape).Idx → EReal) : (⟨2, ![4096, 11008]⟩ : Shape).Idx → EReal := fun i =>
  deq cb codes sc
      (⟨((i 0).val * 11008 + (i 1).val) / 8, by have h0 := idx2_lt0 i; have h1 := idx2_lt1 i; omega⟩ : Fin 5636096)
      (⟨((i 0).val * 11008 + (i 1).val) % 8, Nat.mod_lt _ (by decide)⟩ : Fin 8)
    + ∑ k : Fin 32, L (ix2 (⟨(i 0).val, idx2_lt0 i⟩ : Fin 4096) k) * R (ix2 k (⟨(i 1).val, idx2_lt1 i⟩ : Fin 11008))

/-- A code of the [2, 1, 2818048] code array, by its running number `q`, read modulo 256. -/
def codeK (codes : (⟨3, ![2, 1, 2818048]⟩ : Shape).Idx → BitVec 32) (q : Fin 5636096) : Fin 256 :=
  ⟨(codes (ix3 (⟨q.val / 2818048, by have := q.isLt; omega⟩ : Fin 2) (0 : Fin 1)
      (⟨q.val % 2818048, Nat.mod_lt _ (by decide)⟩ : Fin 2818048))).toNat % 256, Nat.mod_lt _ (by decide)⟩

/-- The same number read from the codebooks re-laid as [2, 16, 128] — row `h`, lane `l` of codebook `n` is number `l % 8`
    of its row `16 h + l / 8` — and from the codes as a [2, 1, 2818048] array: code `v` is found in row `v / 16` at
    lanes `8 (v % 16) … 8 (v % 16) + 7`. -/
def deqK (rhs : (⟨3, ![2, 16, 128]⟩ : Shape).Idx → EReal) (codes : (⟨3, ![2, 1, 2818048]⟩ : Shape).Idx → BitVec 32)
    (sc : (⟨2, ![11008, 1]⟩ : Shape).Idx → EReal) (q : Fin 5636096) (c : Fin 8) : EReal :=
  rhs (ix3 (⟨q.val / 2818048, by have := q.isLt; omega⟩ : Fin 2)
        (⟨(codeK codes q).val / 16, by have := (codeK codes q).isLt; omega⟩ : Fin 16)
        (⟨(codeK codes q).val % 16 * 8 + c.val, by have := c.isLt; omega⟩ : Fin 128))
    * sc (ix2 (⟨q.val / 512, by have := q.isLt; omega⟩ : Fin 11008) (0 : Fin 1))

/-- One staged block of 16384 codes: number `c` of its code `q`, from the block's codebook `x0` (as [1, 16, 128]), its
    codes `x1` and its 32 scales `x2`. -/
def blkK (x0 : (⟨3, ![1, 16, 128]⟩ : Shape).Idx → EReal) (x1 : (⟨3, ![1, 1, 16384]⟩ : Shape).Idx → BitVec 32)
    (x2 : (⟨2, ![32, 1]⟩ : Shape).Idx → EReal) (q : Fin 16384) (c : Fin 8) : EReal :=
  x0 (ix3 (0 : Fin 1)
        (⟨(x1 (ix3 (0 : Fin 1) (0 : Fin 1) q)).toNat % 256 / 16, by have := Nat.mod_lt (x1 (ix3 (0 : Fin 1) (0 : Fin 1) q)).toNat (show 0 < 256 by decide); omega⟩ : Fin 16)
        (⟨(x1 (ix3 (0 : Fin 1) (0 : Fin 1) q)).toNat % 256 % 16 * 8 + c.val, by have := c.isLt; omega⟩ : Fin 128))
    * x2 (ix2 (⟨q.val / 512, by have := q.isLt; omega⟩ : Fin 32) (0 : Fin 1))

/-- One chunk of 4096 codes inside a block: number `c` of its code `r`, from the block's codebook, the chunk's codes
    `v` and its 8 scales `s`. -/
def chunkK (x0 : (⟨3, ![1, 16, 128]⟩ : Shape).Idx → EReal) (v : (⟨3, ![1, 1, 4096]⟩ : Shape).Idx → BitVec 32)
    (s : (⟨2, ![8, 1]⟩ : Shape).Idx → EReal) (r : Fin 4096) (c : Fin 8) : EReal :=
  x0 (ix3 (0 : Fin 1)
        (⟨(v (ix3 (0 : Fin 1) (0 : Fin 1) r)).toNat % 256 / 16, by have := Nat.mod_lt (v (ix3 (0 : Fin 1) (0 : Fin 1) r)).toNat (show 0 < 256 by decide); omega⟩ : Fin 16)
        (⟨(v (ix3 (0 : Fin 1) (0 : Fin 1) r)).toNat % 256 % 16 * 8 + c.val, by have := c.isLt; omega⟩ : Fin 128))
    * s (ix2 (⟨r.val / 512, by have := r.isLt; omega⟩ : Fin 8) (0 : Fin 1))

end Cert.Spec

end
-- ==== Proof.Host.lean ====
/-
  The host operations around the two calls, read at an entry.

  Before the first call the codes are clipped to [0, 255] (the identity on a code already there) and re-laid as
  [2, 1, 2818048]; the codebooks [2, 256, 8] are re-laid as [2, 16, 16, 8] and then [2, 16, 128], so that row `h`, lane `l` of
  codebook `n` is number `l % 8` of its row `16 h + l / 8` (a re-laying keeps the row-major position).  Between the calls the
  first call's [5636096, 8] result is re-laid as [4096, 11008]: entry `(i0, i1)` is entry `(p / 8, p % 8)`, `p = 11008 i0 + i1`.
  The scales, `L` and `R` reach the calls as launched.
-/
import proofs.«427181_j77919296684642_3_alg».proof.Proof.Gen.KernelIdeal.Frame
import proofs.«427181_j77919296684642_3_alg».proof.Proof.Spec
import Idealize.ShloMosaic.Lib.StableHlo.Run
import Idealize.ShloMosaic.Lib.StableHlo.Predicate
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The five argument arrays at launch, at their literal types. -/
abbrev argCb (c : Dev nD) : Vec Ideal S2x256x8 .f32 := m ((c : Thread nD τ).loc main_arg0)
abbrev argCodes (c : Dev nD) : Vec Ideal S2x2818048 .i32 := m ((c : Thread nD τ).loc main_arg1)
abbrev argScales (c : Dev nD) : Vec Ideal S11008x1 .f32 := m ((c : Thread nD τ).loc main_arg2)
abbrev argL (c : Dev nD) : Vec Ideal S4096x32 .f32 := m ((c : Thread nD τ).loc main_arg3)
abbrev argR (c : Dev nD) : Vec Ideal S32x11008 .f32 := m ((c : Thread nD τ).loc main_arg4)

/-- The codes after the clip to [0, 255]. -/
abbrev clipped (c : Dev nD) : Vec Ideal S2x2818048 .i32 :=
  minsi (broadcastInDim S2x2818048 ![] bcast_S_S2x2818048 (constantI S_ 32 255#32))
    (maxsi (broadcastInDim S2x2818048 ![] bcast_S_S2x2818048 (constantI S_ 32 0#32)) (argCodes m c))

/-- The first call finds the codebooks re-laid twice: [2,256,8] as [2,16,16,8] as [2,16,128]. -/
theorem V3_v2 (c : Dev nD) :
    (V3 m ρ c main_v2 : Vec Ideal S2x16x128 .f32)
      = shapeCast S2x16x128 (shapeCast S2x16x16x8 (argCb m c) shapeCasts_S2x256x8_S2x16x16x8) shapeCasts_S2x16x16x8_S2x16x128 := by
  show StableHlo.after hostOps0_2 (StableHlo.after hostOps0_1 (StableHlo.after hostOps0 (W0 m ρ c))) (Proc.devRef .tc main_v2) = _
  after_results
  rfl

/-- It finds the clipped codes re-laid as [2,1,2818048]. -/
theorem V3_v3 (c : Dev nD) :
    (V3 m ρ c main_v3 : Vec Ideal S2x1x2818048 .i32)
      = shapeCast S2x1x2818048 (clipped m c) shapeCasts_S2x2818048_S2x1x2818048 := by
  show StableHlo.after hostOps0_2 (StableHlo.after hostOps0_1 (StableHlo.after hostOps0 (W0 m ρ c))) (Proc.devRef .tc main_v3) = _
  after_results
  rfl

/-- It finds the scales as launched. -/
theorem V3_arg2 (c : Dev nD) : (V3 m ρ c main_arg2 : Vec Ideal S11008x1 .f32) = argScales m c := by
  show StableHlo.after hostOps0_2 (StableHlo.after hostOps0_1 (StableHlo.after hostOps0 (W0 m ρ c))) (Proc.devRef .tc main_arg2) = _
  after_results

/-- The second call finds the first call's result re-laid as [4096,11008]. -/
theorem V5_v5 (c : Dev nD) :
    (V5 m ρ c main_v5 : Vec Ideal S4096x11008 .f32)
      = shapeCast S4096x11008 (W4 m ρ c (Proc.devRef .tc main_v4) : Vec Ideal S5636096x8 .f32) shapeCasts_S5636096x8_S4096x11008 := by
  show StableHlo.after hostOps1 (W4 m ρ c) (Proc.devRef .tc main_v5) = _
  after_results
  rfl

/-- It finds `L` and `R` as launched: the last boundary holds them as launched, and the second call only reads them. -/
theorem V5_arg3 (c : Dev nD) : (V5 m ρ c main_arg3 : Vec Ideal S4096x32 .f32) = argL m c :=
  ((W6_arr m ρ c 1).trans (((dat1 (V5 m ρ) c).arrAt_in 1 rfl _).trans (A_eq1 (V5 m ρ) c 1))).symm.trans (W6_main_arg3 m ρ c)
theorem V5_arg4 (c : Dev nD) : (V5 m ρ c main_arg4 : Vec Ideal S32x11008 .f32) = argR m c :=
  ((W6_arr m ρ c 2).trans (((dat1 (V5 m ρ) c).arrAt_in 2 rfl _).trans (A_eq1 (V5 m ρ) c 2))).symm.trans (W6_main_arg4 m ρ c)

/-! ## The host stretches read at an entry -/

/-- The clip to [0, 255] keeps a word that is already there. -/
theorem clip_word (w : BitVec 32) (hw : w.toNat < 256) : IntOp.minsi 255#32 (IntOp.maxsi 0#32 w) = w := by
  have hti : w.toInt = w.toNat := StableHlo.Predicate.toInt_eq_toNat_of_lt (by omega)
  have h0 : (0#32 : BitVec 32).toInt = 0 := by decide
  have h255 : (255#32 : BitVec 32).toInt = 255 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h255, decide_eq_true_eq]
  omega

theorem clipped_apply (c : Dev nD) (j : S2x2818048.Idx) (h : (argCodes m c j).toNat < 256) :
    clipped m c j = argCodes m c j := by
  show IntOp.minsi (broadcastInDim S2x2818048 ![] bcast_S_S2x2818048 (constantI S_ 32 255#32) j)
      (IntOp.maxsi (broadcastInDim S2x2818048 ![] bcast_S_S2x2818048 (constantI S_ 32 0#32) j) (argCodes m c j)) = _
  exact clip_word _ h

/-- Row `h`, lane `l` of the re-laid codebook `n` is number `l % 8` of its row `16 h + l / 8`. -/
theorem rhs_apply (c : Dev nD) (n : Fin 2) (h : Fin 16) (l : Fin 128) :
    (V3 m ρ c main_v2 : Vec Ideal S2x16x128 .f32) (ix3 n h l)
      = argCb m c (ix3 n (⟨h.val * 16 + l.val / 8, by have := h.isLt; have := l.isLt; omega⟩ : Fin 256)
          (⟨l.val % 8, Nat.mod_lt _ (by decide)⟩ : Fin 8)) := by
  rw [V3_v2]
  refine (shapeCast_apply _ shapeCasts_S2x16x16x8_S2x16x128 (ix3 n h l)
    (ix4 n h (⟨l.val / 8, by have := l.isLt; omega⟩ : Fin 16) (⟨l.val % 8, Nat.mod_lt _ (by decide)⟩ : Fin 8)) ?_).trans ?_
  · rewrite [Shape.rowMajor_val_four, Shape.rowMajor_val_three]
    show ((n.val * 16 + h.val) * 16 + l.val / 8) * 8 + l.val % 8 = (n.val * 16 + h.val) * 128 + l.val
    omega
  · refine shapeCast_apply _ shapeCasts_S2x256x8_S2x16x16x8 _ _ ?_
    rewrite [Shape.rowMajor_val_three, Shape.rowMajor_val_four]
    show (n.val * 256 + (h.val * 16 + l.val / 8)) * 8 + l.val % 8 = ((n.val * 16 + h.val) * 16 + l.val / 8) * 8 + l.val % 8
    omega

/-- Code `(n, 0, k)` of the re-laid code array is the clipped code `(n, k)`. -/
theorem codes3_apply (c : Dev nD) (n : Fin 2) (k : Fin 2818048) :
    (V3 m ρ c main_v3 : Vec Ideal S2x1x2818048 .i32) (ix3 n (0 : Fin 1) k) = clipped m c (ix2 n k) := by
  rw [V3_v3]
  refine shapeCast_apply _ shapeCasts_S2x2818048_S2x1x2818048 _ _ ?_
  rewrite [Shape.rowMajor_val_two, Shape.rowMajor_val_three]
  show n.val * 2818048 + k.val = (n.val * 1 + 0) * 2818048 + k.val
  omega

/-- Entry `(i0, i1)` of the re-laid result of the first call is its entry `(p / 8, p % 8)`, `p = 11008 i0 + i1`. -/
theorem deq_apply (c : Dev nD) (i : S4096x11008.Idx) :
    (V5 m ρ c main_v5 : Vec Ideal S4096x11008 .f32) i
      = (W4 m ρ c (Proc.devRef .tc main_v4) : Vec Ideal S5636096x8 .f32)
          (ix2 (⟨((i 0).val * 11008 + (i 1).val) / 8, by have h0 := idx2_lt0 i; have h1 := idx2_lt1 i; omega⟩ : Fin 5636096)
            (⟨((i 0).val * 11008 + (i 1).val) % 8, Nat.mod_lt _ (by decide)⟩ : Fin 8)) := by
  rw [V5_v5]
  refine shapeCast_apply _ shapeCasts_S5636096x8_S4096x11008 _ _ ?_
  rewrite [Shape.rowMajor_val_two, Shape.rowMajor_val_two]
  have h0 := idx2_lt0 i; have h1 := idx2_lt1 i
  show ((i 0).val * 11008 + (i 1).val) / 8 * 8 + ((i 0).val * 11008 + (i 1).val) % 8 = (i 0).val * 11008 + (i 1).val
  omega

end Cert.KernelIdeal.Val

end
-- ==== Proof.Payload0.lean ====
import proofs.«427181_j77919296684642_3_alg».proof.Proof.Gen.KernelIdeal.Skeleton
import proofs.«427181_j77919296684642_3_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-
  One chunk of 4096 codes, read entry by entry on the extended reals.

  Row r carries code v (0 ≤ v < 256).  The one-hot row at column v / 16, multiplied into the codebook re-laid as
  [16, 128], selects row v / 16 of it; the lane mask keeps the 8 lanes of group v % 16; four rotate-and-add steps
  (by 64, 32, 16, 8 lanes) leave in every lane the sum over the 16 lanes congruent to it modulo 8, of which exactly
  one lies in the kept group, so lanes 0..7 hold the 8 numbers of code v; the re-laying as [8, 512, 8] multiplies
  row r by the scale number r / 512.
-/

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-! ## Words: a code below 256 split into its high and low four bits -/

/-- An arithmetic shift right by four of a word below 256 is its quotient by 16. -/
theorem shrsi4_of_lt (x : BitVec 32) (hx : x.toNat < 256) :
    IntOp.shrsi .vector x 4#32 = BitVec.ofNat 32 (x.toNat / 16) := by
  unfold IntOp.shrsi
  rw [if_pos (by decide)]
  have hm : x.msb = false := by
    rw [BitVec.msb_eq_false_iff_two_mul_lt]; omega
  rw [BitVec.sshiftRight_eq', BitVec.sshiftRight_eq_of_msb_false hm]
  apply BitVec.eq_of_toNat_eq
  rw [BitVec.toNat_ushiftRight, BitVec.toNat_ofNat, Nat.shiftRight_eq_div_pow]
  show x.toNat / 16 = (x.toNat / 16) % 4294967296
  omega

/-- The low four bits of a word are its remainder modulo 16. -/
theorem andi15_eq (x : BitVec 32) :
    IntOp.andi x 15#32 = BitVec.ofNat 32 (x.toNat % 16) := by
  unfold IntOp.andi
  apply BitVec.eq_of_toNat_eq
  rw [BitVec.toNat_and, BitVec.toNat_ofNat]
  show x.toNat &&& (2 ^ 4 - 1) = (x.toNat % 16) % 4294967296
  rw [Nat.and_two_pow_sub_one_eq_mod]
  omega

/-- A bit widened to a word and converted is 1 or 0. -/
theorem bit_to_real (b : BitVec 1) :
    (FloatOps.sitofp .f32 (b.setWidth 32) : Ideal .f32) = if b = 1#1 then 1 else 0 := by
  rcases BitVec.eq_zero_or_eq_one b with h | h <;> subst h
  · show (((BitVec.setWidth 32 0#1).toInt : ℝ) : EReal) = _
    simp
  · show (((BitVec.setWidth 32 1#1).toInt : ℝ) : EReal) = _
    simp

/-- The converted equality test of two words is the indicator of their equality. -/
theorem onehot_word (x y : BitVec 32) :
    (FloatOps.sitofp .f32 ((IntOp.cmpi .eq x y).setWidth 32) : Ideal .f32) = if x = y then 1 else 0 := by
  rw [bit_to_real]
  by_cases h : x = y
  · subst h; simp [IntOp.cmpi]
  · have hb : (x == y) = false := by simpa using h
    rw [if_neg h]
    simp [IntOp.cmpi, hb]

/-- Two numbers below 2^32 are equal when their words are. -/
theorem ofNat_inj_of_lt {a b : Nat} (ha : a < 4294967296) (hb : b < 4294967296) :
    BitVec.ofNat 32 a = BitVec.ofNat 32 b ↔ a = b := by
  constructor
  · intro h
    have := congrArg BitVec.toNat h
    rw [BitVec.toNat_ofNat, BitVec.toNat_ofNat] at this
    omega
  · intro h; rw [h]

/-! ## Layout: the codes as a column, a column broadcast along the rows, the column numbers -/

/-- The codes re-laid as a column read, at row r, code r. -/
theorem codes_col (v33 : Vec Ideal S1x1x4096 .i32) (r : Fin 4096) (z : Fin 1) :
    shapeCast S4096x1 (shapeCast S4096 v33 shapeCasts_S1x1x4096_S4096 : IVec S4096 32) shapeCasts_S4096_S4096x1 (ix2 r z)
      = v33 (ix3 (0 : Fin 1) (0 : Fin 1) r) := by
  refine (shapeCast_apply _ shapeCasts_S4096_S4096x1 (ix2 r z) (ix1 r) ?_).trans ?_
  · rw [Shape.rowMajor_val_one, Shape.rowMajor_val_two]
    show r.val = r.val * 1 + z.val
    omega
  · refine shapeCast_apply v33 shapeCasts_S1x1x4096_S4096 (ix1 r) (ix3 (0 : Fin 1) (0 : Fin 1) r) ?_
    rw [Shape.rowMajor_val_three, Shape.rowMajor_val_one]
    show (0 * 1 + 0) * 4096 + r.val = r.val
    omega

/-- A column [a, 1] broadcast along the rows to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column h of the column numbers is h. -/
theorem iota16_apply (z : Fin 1) (h : Fin 16) :
    iota .tc S1x16 32 [1] iota_S1x16_d1_w32 (ix2 z h) = BitVec.ofNat 32 h.val := by
  show BitVec.ofNat 32 (0 * 16 + h.val) = _
  rw [Nat.zero_mul, Nat.zero_add]

/-! ## The lane-group vector: lane l belongs to group l / 8 -/

theorem lane_group : ∀ l : Fin 128, k0_pay2 (ix2 (0 : Fin 1) l) = BitVec.ofNat 32 (l.val / 8) := by
  decide +kernel

/-! ## The one-hot product as a sum over the 16 rows of the re-laid codebook -/

theorem lhs_dot_0 (i : S4096x128.Idx) (q : dot_S4096x16_S16x128_S4096x128_1_0_0_1_n_n.contr.Idx) :
    (dot_S4096x16_S16x128_S4096x128_1_0_0_1_n_n.lhsIdx i q 0).val = (i 0).val := by
  unfold DotDims.lhsIdx
  rw [dif_neg (show ¬(0 : Fin S4096x16.rank) ∈ dot_S4096x16_S16x128_S4096x128_1_0_0_1_n_n.lhsBatch by decide), dif_pos (show (0 : Fin S4096x16.rank) ∈ dot_S4096x16_S16x128_S4096x128_1_0_0_1_n_n.lhsNonContracting by decide)]
  rfl
theorem lhs_dot_1 (i : S4096x128.Idx) (q : dot_S4096x16_S16x128_S4096x128_1_0_0_1_n_n.contr.Idx) :
    (dot_S4096x16_S16x128_S4096x128_1_0_0_1_n_n.lhsIdx i q 1).val = (q ⟨0, by decide⟩).val :=
  dot_S4096x16_S16x128_S4096x128_1_0_0_1_n_n.lhsIdx_val_of_single rfl i q
theorem rhs_dot_0 (i : S4096x128.Idx) (q : dot_S4096x16_S16x128_S4096x128_1_0_0_1_n_n.contr.Idx) :
    (dot_S4096x16_S16x128_S4096x128_1_0_0_1_n_n.rhsIdx i q 0).val = (q ⟨0, by decide⟩).val :=
  dot_S4096x16_S16x128_S4096x128_1_0_0_1_n_n.rhsIdx_val_of_single rfl i q
theorem rhs_dot_1 (i : S4096x128.Idx) (q : dot_S4096x16_S16x128_S4096x128_1_0_0_1_n_n.contr.Idx) :
    (dot_S4096x16_S16x128_S4096x128_1_0_0_1_n_n.rhsIdx i q 1).val = (i 1).val := by
  unfold DotDims.rhsIdx
  rw [dif_neg (show ¬(1 : Fin S16x128.rank) ∈ dot_S4096x16_S16x128_S4096x128_1_0_0_1_n_n.rhsBatch by decide), dif_pos (show (1 : Fin S16x128.rank) ∈ dot_S4096x16_S16x128_S4096x128_1_0_0_1_n_n.rhsNonContracting by decide)]
  rfl

/-- The product into the zero splat, read at (r, l): the sum over the contracted coordinate. -/
theorem matmul_row (lhs : FVec Ideal S4096x16 .bf16) (rhs : FVec Ideal S16x128 .bf16) (r : Fin 4096) (l : Fin 128) :
    matmul dot_S4096x16_S16x128_S4096x128_1_0_0_1_n_n none lhs rhs (constant (F := Ideal) S4096x128 .f32 0x00000000#32) (ix2 r l)
      = ∑ k : Fin 16, lhs (ix2 r k) * rhs (ix2 k l) := by
  simp only [matmul]
  rw [Ideal.matmul_constant_zero_apply, ← Equiv.sum_comp (ValueIdx.contrEquiv1 dot_S4096x16_S16x128_S4096x128_1_0_0_1_n_n 16 rfl rfl).symm]
  refine Finset.sum_congr rfl fun k _ => ?_
  have hk := ValueIdx.contrEquiv1_symm_val dot_S4096x16_S16x128_S4096x128_1_0_0_1_n_n 16 rfl rfl k
  have el : dot_S4096x16_S16x128_S4096x128_1_0_0_1_n_n.lhsIdx (ix2 r l) ((ValueIdx.contrEquiv1 dot_S4096x16_S16x128_S4096x128_1_0_0_1_n_n 16 rfl rfl).symm k) = ix2 r k := funext fun a => Fin.ext (by
    match a with
    | ⟨0, _⟩ => exact lhs_dot_0 _ _
    | ⟨1, _⟩ => exact (lhs_dot_1 _ _).trans hk)
  have er : dot_S4096x16_S16x128_S4096x128_1_0_0_1_n_n.rhsIdx (ix2 r l) ((ValueIdx.contrEquiv1 dot_S4096x16_S16x128_S4096x128_1_0_0_1_n_n 16 rfl rfl).symm k) = ix2 k l := funext fun a => Fin.ext (by
    match a with
    | ⟨0, _⟩ => exact (rhs_dot_0 _ _).trans hk
    | ⟨1, _⟩ => exact rhs_dot_1 _ _)
  rw [el, er]

/-! ## Sums over the lanes of one residue class, and the four rotate-and-add steps -/

/-- The sum of `g` over the lanes congruent to `l` modulo `s`. -/
def cls (s : Nat) (g : Fin 128 → EReal) (l : Fin 128) : EReal :=
  ∑ l' : Fin 128, if l'.val % s = l.val % s then g l' else 0

/-- Modulo 128 a lane is alone in its class. -/
theorem cls_128 (g : Fin 128 → EReal) (l : Fin 128) : cls 128 g l = g l := by
  unfold cls
  rw [Finset.sum_eq_single l]
  · rw [if_pos rfl]
  · intro b _ hb
    rw [if_neg]
    intro h
    apply hb
    apply Fin.ext
    have := b.isLt; have := l.isLt; omega
  · intro h; exact absurd (Finset.mem_univ l) h

/-- The class of `l` modulo `s` is the union of the classes of `l` and of `l - s` modulo `2 s`. -/
theorem cls_fold (s : Nat) (hs : s = 64 ∨ s = 32 ∨ s = 16 ∨ s = 8) (g : Fin 128 → EReal) (l : Fin 128) :
    cls (2 * s) g l + cls (2 * s) g ⟨(l.val + 128 - s) % 128, Nat.mod_lt _ (by decide)⟩ = cls s g l := by
  unfold cls
  rw [← Finset.sum_add_distrib]
  refine Finset.sum_congr rfl fun l' _ => ?_
  have h1 := l'.isLt; have h2 := l.isLt
  show (if l'.val % (2 * s) = l.val % (2 * s) then g l' else 0)
      + (if l'.val % (2 * s) = ((l.val + 128 - s) % 128) % (2 * s) then g l' else 0)
    = if l'.val % s = l.val % s then g l' else 0
  rcases hs with rfl | rfl | rfl | rfl <;>
  · split_ifs <;> first | exact add_zero _ | exact zero_add _ | (exfalso; omega)

/-- A rotation along the lanes by `s`, read at (r, l): the operand at lane `l - s`, around the end. -/
theorem rotate_row (s : Nat) (hs : s < 128) (x : FVec Ideal S4096x128 .f32) (r : Fin 4096) (l : Fin 128) :
    dynamicRotate 1 (BitVec.ofNat 32 s) none x rotates_S4096x128_d1 (ix2 r l)
      = x (ix2 r ⟨(l.val + 128 - s) % 128, Nat.mod_lt _ (by decide)⟩) := by
  refine dynamicRotate_apply 1 _ x rotates_S4096x128_d1 (ix2 r l) (ix2 r ⟨(l.val + 128 - s) % 128, Nat.mod_lt _ (by decide)⟩) fun b => ?_
  match b with
  | ⟨0, _⟩ => exact (if_neg (Fin.ne_of_val_ne Nat.zero_ne_one)).symm
  | ⟨1, hlt⟩ =>
    have e : (⟨1, hlt⟩ : Fin S4096x128.rank) = 1 := Fin.ext rfl
    rw [if_pos e]
    show (l.val + 128 - s) % 128 = (l.val + 128 - (BitVec.ofNat 32 s).toNat % 128) % 128
    rw [BitVec.toNat_ofNat]
    show _ = (l.val + 128 - s % 4294967296 % 128) % 128
    omega

/-- One step: a vector whose rows hold class sums modulo `2 s`, added to its rotation by `s`, holds them modulo `s`. -/
theorem fold_row (s : Nat) (hs : s = 64 ∨ s = 32 ∨ s = 16 ∨ s = 8) (x y : FVec Ideal S4096x128 .f32) (r : Fin 4096)
    (hy : ∀ l, y (ix2 r l) = cls (2 * s) (fun l' => x (ix2 r l')) l) (l : Fin 128) :
    addf y (dynamicRotate 1 (BitVec.ofNat 32 s) none y rotates_S4096x128_d1) (ix2 r l) = cls s (fun l' => x (ix2 r l')) l := by
  show y (ix2 r l) + dynamicRotate 1 (BitVec.ofNat 32 s) none y rotates_S4096x128_d1 (ix2 r l) = _
  rw [rotate_row s (by omega) y r l, hy, hy]
  exact cls_fold s hs _ l

/-- Of the 16 lanes congruent to `c` modulo 8 exactly one, `8 m + c`, lies in group `m`: a class sum of values masked to
    group `m` is the value there. -/
theorem cls8_masked (f : Fin 128 → EReal) (m : Nat) (hm : m < 16) (c : Fin 8) :
    cls 8 (fun l' => f l' * (if l'.val / 8 = m then 1 else 0)) ⟨c.val, by have := c.isLt; omega⟩
      = f ⟨m * 8 + c.val, by have := c.isLt; omega⟩ := by
  have hc := c.isLt
  unfold cls
  rw [Finset.sum_eq_single (⟨m * 8 + c.val, by omega⟩ : Fin 128)]
  · show (if (m * 8 + c.val) % 8 = c.val % 8 then f _ * (if (m * 8 + c.val) / 8 = m then 1 else 0) else 0) = _
    rw [if_pos (by omega), if_pos (by omega), mul_one]
  · intro b _ hb
    show (if b.val % 8 = c.val % 8 then f b * (if b.val / 8 = m then 1 else 0) else 0) = 0
    split_ifs with h1 h2
    · exfalso; apply hb; apply Fin.ext; show b.val = m * 8 + c.val; omega
    · exact mul_zero _
    · rfl
  · intro h; exact absurd (Finset.mem_univ _) h

/-! ## The chunk's value, stage by stage -/

/-- The chunk's codes as a column. -/
def codeCol (v33 : Vec Ideal S1x1x4096 .i32) : IVec S4096x1 32 :=
  shapeCast S4096x1 (shapeCast S4096 v33 shapeCasts_S1x1x4096_S4096 : IVec S4096 32) shapeCasts_S4096_S4096x1

/-- Row r holds 1 at column (code r) / 16 and 0 elsewhere. -/
def oneHot (v33 : Vec Ideal S1x1x4096 .i32) : FVec Ideal S4096x16 .bf16 :=
  truncf .bf16 (sitofp .f32 (extui 32 (cmpi .eq
      (broadcastTo S4096x16 (shrsi (codeCol v33) (broadcast S4096x1 4#32)) broadcasts_S4096x1_S4096x16)
      (broadcastTo S4096x16 (iota .tc S1x16 32 [1] iota_S1x16_d1_w32) broadcasts_S1x16_S4096x16)) natLt_1_32) : FVec Ideal S4096x16 .f32)
    bitsLt_bf16_f32

/-- Row r holds row (code r) / 16 of the re-laid codebook. -/
def looked (v0 : Vec Ideal S1x16x128 .f32) (v33 : Vec Ideal S1x1x4096 .i32) : FVec Ideal S4096x128 .f32 :=
  matmul dot_S4096x16_S16x128_S4096x128_1_0_0_1_n_n none (oneHot v33) (k0_pay1 (F := Ideal) v0)
    (constant (F := Ideal) S4096x128 .f32 0x00000000#32)

/-- Row r holds 1 on the lanes of group (code r) % 16 and 0 elsewhere. -/
def laneMask (v33 : Vec Ideal S1x1x4096 .i32) : FVec Ideal S4096x128 .f32 :=
  sitofp .f32 (extui 32 (cmpi .eq
      (broadcastTo S4096x128 k0_pay2 broadcasts_S1x128_S4096x128)
      (broadcastTo S4096x128 (andi (codeCol v33) (broadcast S4096x1 15#32)) broadcasts_S4096x1_S4096x128)) natLt_1_32)

/-- One rotate-and-add step. -/
def fold (s : BitVec 32) (y : FVec Ideal S4096x128 .f32) : FVec Ideal S4096x128 .f32 :=
  addf y (dynamicRotate 1 s none y rotates_S4096x128_d1)

/-- The scaling of a [4096, 8] vector by the 8 scales, 512 rows to a scale, through the [8, 512, 8] re-laying. -/
def scaled (y : FVec Ideal S4096x8 .f32) (v65 : Vec Ideal S8x1 .f32) : FVec Ideal S4096x8 .f32 :=
  shapeCast S4096x8 (mulf (shapeCast S8x512x8 y shapeCasts_S4096x8_S8x512x8 : FVec Ideal S8x512x8 .f32)
      (broadcastTo S8x512x8 (shapeCast S8x1x1 v65 shapeCasts_S8x1_S8x1x1 : FVec Ideal S8x1x1 .f32) broadcasts_S8x1x1_S8x512x8))
    shapeCasts_S8x512x8_S4096x8

/-- The chunk's value is the composition of the stages. -/
theorem pay3_eq (v0 : Vec Ideal S1x16x128 .f32) (v33 : Vec Ideal S1x1x4096 .i32) (v65 : Vec Ideal S8x1 .f32) :
    k0_pay3 (F := Ideal) (k0_pay1 v0) (iota .tc S1x16 32 [1] iota_S1x16_d1_w32) k0_pay2 v33 v65
      = scaled (extractStridedSlice S4096x8 ![0, 0]
          (fold 8#32 (fold 16#32 (fold 32#32 (fold 64#32 (mulf (looked v0 v33) (laneMask v33))))))
          slices_S4096x128_o0_0_S4096x8) v65 := rfl

/-- The re-laid codebook at (k, l) is the block's codebook at (0, k, l). -/
theorem pay1_apply (v0 : Vec Ideal S1x16x128 .f32) (k : Fin 16) (l : Fin 128) :
    k0_pay1 (F := Ideal) v0 (ix2 k l) = v0 (ix3 (0 : Fin 1) k l) := by
  show shapeCast S16x128 v0 shapeCasts_S1x16x128_S16x128 (ix2 k l) = _
  exact shapeCast_1ab_ab_apply v0 _ k l

/-- The one-hot row of code v has its 1 at column v / 16. -/
theorem oneHot_apply (v33 : Vec Ideal S1x1x4096 .i32) (r : Fin 4096) (h : Fin 16)
    (hr : (v33 (ix3 (0 : Fin 1) (0 : Fin 1) r)).toNat < 256) :
    oneHot v33 (ix2 r h) = if (v33 (ix3 (0 : Fin 1) (0 : Fin 1) r)).toNat / 16 = h.val then 1 else 0 := by
  show (FloatOps.sitofp .f32 ((IntOp.cmpi .eq
      (broadcastTo S4096x16 (shrsi (codeCol v33) (broadcast S4096x1 4#32)) broadcasts_S4096x1_S4096x16 (ix2 r h))
      (broadcastTo S4096x16 (iota .tc S1x16 32 [1] iota_S1x16_d1_w32) broadcasts_S1x16_S4096x16 (ix2 r h))).setWidth 32) : Ideal .f32) = _
  rw [broadcastTo_a1_ab_apply, broadcastTo_1b_ab_apply, iota16_apply]
  show (FloatOps.sitofp .f32 ((IntOp.cmpi .eq (IntOp.shrsi .vector (codeCol v33 (ix2 r (0 : Fin 1))) 4#32)
      (BitVec.ofNat 32 h.val)).setWidth 32) : Ideal .f32) = _
  unfold codeCol
  rw [codes_col, shrsi4_of_lt _ hr, onehot_word]
  exact if_congr (ofNat_inj_of_lt (by omega) (by have := h.isLt; omega)) rfl rfl

/-- The product selects row v / 16 of the codebook: every other term of the sum is 0 times a value. -/
theorem looked_apply (v0 : Vec Ideal S1x16x128 .f32) (v33 : Vec Ideal S1x1x4096 .i32) (r : Fin 4096) (l : Fin 128)
    (hr : (v33 (ix3 (0 : Fin 1) (0 : Fin 1) r)).toNat < 256) :
    looked v0 v33 (ix2 r l)
      = v0 (ix3 (0 : Fin 1) (⟨(v33 (ix3 (0 : Fin 1) (0 : Fin 1) r)).toNat / 16, by omega⟩ : Fin 16) l) := by
  unfold looked
  rw [matmul_row, Finset.sum_eq_single (⟨(v33 (ix3 (0 : Fin 1) (0 : Fin 1) r)).toNat / 16, by omega⟩ : Fin 16)]
  · rw [oneHot_apply _ _ _ hr, if_pos rfl, one_mul, pay1_apply]
  · intro b _ hb
    rw [oneHot_apply _ _ _ hr, if_neg (fun h => hb (Fin.ext h.symm)), zero_mul]
  · intro h; exact absurd (Finset.mem_univ _) h

/-- The mask of code v is 1 on the lanes of group v % 16. -/
theorem laneMask_apply (v33 : Vec Ideal S1x1x4096 .i32) (r : Fin 4096) (l : Fin 128) :
    laneMask v33 (ix2 r l) = if l.val / 8 = (v33 (ix3 (0 : Fin 1) (0 : Fin 1) r)).toNat % 16 then 1 else 0 := by
  show (FloatOps.sitofp .f32 ((IntOp.cmpi .eq
      (broadcastTo S4096x128 k0_pay2 broadcasts_S1x128_S4096x128 (ix2 r l))
      (broadcastTo S4096x128 (andi (codeCol v33) (broadcast S4096x1 15#32)) broadcasts_S4096x1_S4096x128 (ix2 r l))).setWidth 32) : Ideal .f32) = _
  rw [broadcastTo_1b_ab_apply, broadcastTo_a1_ab_apply, lane_group]
  show (FloatOps.sitofp .f32 ((IntOp.cmpi .eq (BitVec.ofNat 32 (l.val / 8))
      (IntOp.andi (codeCol v33 (ix2 r (0 : Fin 1))) 15#32)).setWidth 32) : Ideal .f32) = _
  unfold codeCol
  rw [codes_col, andi15_eq, onehot_word]
  exact if_congr (ofNat_inj_of_lt (by have := l.isLt; omega) (by omega)) rfl rfl

/-- The four steps leave, in every lane, the sum over the lane's class modulo 8. -/
theorem folds_apply (x : FVec Ideal S4096x128 .f32) (r : Fin 4096) (l : Fin 128) :
    fold 8#32 (fold 16#32 (fold 32#32 (fold 64#32 x))) (ix2 r l) = cls 8 (fun l' => x (ix2 r l')) l :=
  fold_row 8 (by simp) x _ r (fun l =>
    fold_row 16 (by simp) x _ r (fun l =>
      fold_row 32 (by simp) x _ r (fun l =>
        fold_row 64 (by simp) x x r (fun l => (cls_128 (fun l' => x (ix2 r l')) l).symm) l) l) l) l

/-- Entry (r, c) of the scaled vector is the entry times scale r / 512. -/
theorem scaled_apply (y : FVec Ideal S4096x8 .f32) (v65 : Vec Ideal S8x1 .f32) (r : Fin 4096) (c : Fin 8) :
    scaled y v65 (ix2 r c) = y (ix2 r c) * v65 (ix2 (⟨r.val / 512, by have := r.isLt; omega⟩ : Fin 8) (0 : Fin 1)) := by
  have hr := r.isLt
  have hc := c.isLt
  unfold scaled
  refine (shapeCast_apply _ shapeCasts_S8x512x8_S4096x8 (ix2 r c)
    (ix3 (⟨r.val / 512, by omega⟩ : Fin 8) (⟨r.val % 512, Nat.mod_lt _ (by decide)⟩ : Fin 512) c) ?_).trans ?_
  · rw [Shape.rowMajor_val_three, Shape.rowMajor_val_two]
    show (r.val / 512 * 512 + r.val % 512) * 8 + c.val = r.val * 8 + c.val
    omega
  · show shapeCast S8x512x8 y shapeCasts_S4096x8_S8x512x8 (ix3 (⟨r.val / 512, by omega⟩ : Fin 8) (⟨r.val % 512, Nat.mod_lt _ (by decide)⟩ : Fin 512) c)
        * broadcastTo S8x512x8 (shapeCast S8x1x1 v65 shapeCasts_S8x1_S8x1x1 : FVec Ideal S8x1x1 .f32) broadcasts_S8x1x1_S8x512x8
            (ix3 (⟨r.val / 512, by omega⟩ : Fin 8) (⟨r.val % 512, Nat.mod_lt _ (by decide)⟩ : Fin 512) c) = _
    have e1 : shapeCast S8x512x8 y shapeCasts_S4096x8_S8x512x8 (ix3 (⟨r.val / 512, by omega⟩ : Fin 8) (⟨r.val % 512, Nat.mod_lt _ (by decide)⟩ : Fin 512) c)
        = y (ix2 r c) := by
      refine shapeCast_apply y shapeCasts_S4096x8_S8x512x8 _ (ix2 r c) ?_
      rw [Shape.rowMajor_val_three, Shape.rowMajor_val_two]
      show r.val * 8 + c.val = (r.val / 512 * 512 + r.val % 512) * 8 + c.val
      omega
    have e2 : broadcastTo S8x512x8 (shapeCast S8x1x1 v65 shapeCasts_S8x1_S8x1x1 : FVec Ideal S8x1x1 .f32) broadcasts_S8x1x1_S8x512x8
            (ix3 (⟨r.val / 512, by omega⟩ : Fin 8) (⟨r.val % 512, Nat.mod_lt _ (by decide)⟩ : Fin 512) c)
        = v65 (ix2 (⟨r.val / 512, by omega⟩ : Fin 8) (0 : Fin 1)) := by
      refine (broadcastTo_apply _ broadcasts_S8x1x1_S8x512x8 _
        (ix3 (⟨r.val / 512, by omega⟩ : Fin 8) (0 : Fin 1) (0 : Fin 1)) fun a => ?_).trans ?_
      · match a with
        | ⟨0, _⟩ => rfl
        | ⟨1, _⟩ => rfl
        | ⟨2, _⟩ => rfl
      · refine shapeCast_apply v65 shapeCasts_S8x1_S8x1x1 _ (ix2 (⟨r.val / 512, by omega⟩ : Fin 8) (0 : Fin 1)) ?_
        rw [Shape.rowMajor_val_three, Shape.rowMajor_val_two]
        show r.val / 512 * 1 + 0 = (r.val / 512 * 1 + 0) * 1 + 0
        omega
    rw [e1, e2]

/-- The chunk's value at row r, number cc: the codebook entry the code selects, times the row's scale. -/
theorem pay3_apply (v0 : Vec Ideal S1x16x128 .f32) (v33 : Vec Ideal S1x1x4096 .i32) (v65 : Vec Ideal S8x1 .f32)
    (r : Fin 4096) (cc : Fin 8) (hr : (v33 (ix3 (0 : Fin 1) (0 : Fin 1) r)).toNat < 256) :
    k0_pay3 (F := Ideal) (k0_pay1 v0) (iota .tc S1x16 32 [1] iota_S1x16_d1_w32) k0_pay2 v33 v65 (ix2 r cc)
      = Cert.Spec.chunkK v0 v33 v65 r cc := by
  have hc := cc.isLt
  rw [pay3_eq, scaled_apply]
  have hs : extractStridedSlice S4096x8 ![0, 0]
        (fold 8#32 (fold 16#32 (fold 32#32 (fold 64#32 (mulf (looked v0 v33) (laneMask v33))))))
        slices_S4096x128_o0_0_S4096x8 (ix2 r cc)
      = fold 8#32 (fold 16#32 (fold 32#32 (fold 64#32 (mulf (looked v0 v33) (laneMask v33)))))
          (ix2 r (⟨cc.val, by omega⟩ : Fin 128)) :=
    slice2_axis1_apply 0 _ slices_S4096x128_o0_0_S4096x8 r cc ⟨cc.val, by omega⟩ (Nat.zero_add _).symm
  rw [hs, folds_apply]
  have hm : (fun l' : Fin 128 => mulf (looked v0 v33) (laneMask v33) (ix2 r l'))
      = fun l' : Fin 128 =>
          (fun l : Fin 128 => v0 (ix3 (0 : Fin 1)
            (⟨(v33 (ix3 (0 : Fin 1) (0 : Fin 1) r)).toNat / 16, by omega⟩ : Fin 16) l)) l'
          * (if l'.val / 8 = (v33 (ix3 (0 : Fin 1) (0 : Fin 1) r)).toNat % 16 then 1 else 0) :=
    funext fun l' => by
      show looked v0 v33 (ix2 r l') * laneMask v33 (ix2 r l') = _
      rw [looked_apply _ _ _ _ hr, laneMask_apply]
  rw [hm, cls8_masked _ _ (Nat.mod_lt _ (by decide)) cc]
  unfold Cert.Spec.chunkK
  have e : (v33 (ix3 (0 : Fin 1) (0 : Fin 1) r)).toNat % 256 = (v33 (ix3 (0 : Fin 1) (0 : Fin 1) r)).toNat :=
    Nat.mod_eq_of_lt hr
  congr 1
  refine congrArg v0 (funext fun a => ?_)
  match a with
  | ⟨0, _⟩ => rfl
  | ⟨1, _⟩ =>
    refine Fin.ext ?_
    show (v33 (ix3 (0 : Fin 1) (0 : Fin 1) r)).toNat / 16 = (v33 (ix3 (0 : Fin 1) (0 : Fin 1) r)).toNat % 256 / 16
    rw [e]
  | ⟨2, _⟩ =>
    refine Fin.ext ?_
    show (v33 (ix3 (0 : Fin 1) (0 : Fin 1) r)).toNat % 16 * 8 + cc.val
      = (v33 (ix3 (0 : Fin 1) (0 : Fin 1) r)).toNat % 256 % 16 * 8 + cc.val
    rw [e]

end Cert.KernelIdeal.Val
end
-- ==== Proof.Pieces0.lean ====
import proofs.«427181_j77919296684642_3_alg».proof.Proof.Gen.KernelIdeal.Frame
import proofs.«427181_j77919296684642_3_alg».proof.Proof.Payload0

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The loop makes four trips. -/
theorem trips_eq : k0_t1_loop.trips = 4 := by decide

/-- Trip `k` reads its codes from column `4096 k` on of the one row of codes. -/
theorem off1_eq (k : Fin k0_t1_loop.trips) : k0_off1 k = ![0, 0, 4096 * k.val] := by
  have h : ∀ k : Fin k0_t1_loop.trips, ∀ a : Fin 3, k0_off1 k a = (![0, 0, 4096 * k.val] : Fin 3 → Nat) a := by decide
  exact funext (h k)

/-- Trip `k` reads its scales from row `8 k` on. -/
theorem off2_eq (k : Fin k0_t1_loop.trips) : k0_off2 k = ![8 * k.val, 0] := by
  have h : ∀ k : Fin k0_t1_loop.trips, ∀ a : Fin 2, k0_off2 k a = (![8 * k.val, 0] : Fin 2 → Nat) a := by decide
  exact funext (h k)

/-- Trip `k` writes rows `4096 k` on of the output block, all 8 columns. -/
theorem off3_eq (k : Fin k0_t1_loop.trips) : k0_off3 k = ![4096 * k.val, 0] := by
  have h : ∀ k : Fin k0_t1_loop.trips, ∀ a : Fin 2, k0_off3 k a = (![4096 * k.val, 0] : Fin 2 → Nat) a := by decide
  exact funext (h k)

/-- What one trip writes: ONE rectangle, rows `4096 k … 4096 k + 4095` and all 8 columns, holding the payload of the
    codebook, of the 4096 codes read at the trip's columns and of the 8 scales read at the trip's rows. -/
theorem trip_piece (𝒱 : Variants) (c : Dev nD) (bd : Option 𝒱.V) (i : grid0.Coords) (arg2 : Memref sig .tc .vmem S1x16x128 .f32) (harg2 : arg2.IsWhole)
    (arg3 : Memref sig .tc .vmem S1x1x16384 .i32) (harg3 : arg3.IsWhole) (arg4 : Memref sig .tc .vmem S32x1 .f32) (harg4 : arg4.IsWhole)
    (arg5 : Memref sig .tc .vmem S16384x8 .f32) (harg5 : arg5.IsWhole)
    (v0 : Vec Ideal S1x16x128 .f32) (v3 : IVec S1x16 32) (X3 : BufTy.Contents (Elt Ideal) arg3.view.ty) (X4 : BufTy.Contents (Elt Ideal) arg4.view.ty)
    (k : Fin k0_t1_loop.trips) :
    tripL_k0_t1 (F := Ideal) 𝒱 c bd i arg2 harg2 arg3 harg3 arg4 harg4 arg5 harg5 v0 v3 X3 X4 k
      = [⟨Rect.unit (s := S16384x8) (k0_off3 k) S4096x8.size (k0_off3_inb k),
          k0_pay3 (F := Ideal) (k0_pay1 v0) v3 k0_pay2
            (View.readAt (Elt Ideal) arg3.view (Rect.unit (s := S1x1x16384) (k0_off1 k) S1x1x4096.size (k0_off1_inb k)).toLoadRect X3)
            (View.readAt (Elt Ideal) arg4.view (Rect.unit (s := S32x1) (k0_off2 k) S8x1.size (k0_off2_inb k)).toLoadRect X4)⟩] := by
  unfold tripL_k0_t1 trip_k0_t1
  dsimp only
  sl_unfold_run_names
  rfl

/-- The staged block as one function of the buffer's index. -/
def Gblk (x0 : Vec Ideal S1x16x128 .f32) (x1 : Vec Ideal S1x1x16384 .i32) (x2 : Vec Ideal S32x1 .f32) : S16384x8.Idx → Elt Ideal .f32 :=
  fun y => Cert.Spec.blkK x0 x1 x2 ⟨(y 0).val, idx2_lt0 y⟩ ⟨(y 1).val, idx2_lt1 y⟩

/-- The whole run's writes are the writes of the four trips, the codebook read whole. -/
theorem run_pieces (c : Dev nD) (i : grid0.Coords) (arg2 : Memref sig .tc .vmem S1x16x128 .f32) (harg2 : arg2.IsWhole)
    (arg3 : Memref sig .tc .vmem S1x1x16384 .i32) (harg3 : arg3.IsWhole) (arg4 : Memref sig .tc .vmem S32x1 .f32) (harg4 : arg4.IsWhole)
    (arg5 : Memref sig .tc .vmem S16384x8 .f32) (harg5 : arg5.IsWhole)
    (x0 : Vec Ideal S1x16x128 .f32) (x1 : Vec Ideal S1x1x16384 .i32) (x2 : Vec Ideal S32x1 .f32) :
    (kernelRun0_A (F := Ideal) c i arg2 harg2 arg3 harg3 arg4 harg4 arg5 harg5 x0 x1 x2).1
      = pb_k0_t1 (F := Ideal) Variants.none c none i arg2 harg2 arg3 harg3 arg4 harg4 arg5 harg5 x0
          (iota .tc S1x16 32 [1] iota_S1x16_d1_w32) (harg3.unread x1) (harg4.unread x2) k0_t1_loop.trips := by
  unfold kernelRun0_A
  dsimp only
  sl_unfold_words
  rw [View.readAt_eq_ld, harg2.read_unread, View.ld_unit_zero (S := S1x16x128) (by funext a; fin_cases a <;> rfl)]

/-- Every write of the trips before `n` is the write of some trip. -/
theorem mem_pb (𝒱 : Variants) (c : Dev nD) (bd : Option 𝒱.V) (i : grid0.Coords) (arg2 : Memref sig .tc .vmem S1x16x128 .f32) (harg2 : arg2.IsWhole)
    (arg3 : Memref sig .tc .vmem S1x1x16384 .i32) (harg3 : arg3.IsWhole) (arg4 : Memref sig .tc .vmem S32x1 .f32) (harg4 : arg4.IsWhole)
    (arg5 : Memref sig .tc .vmem S16384x8 .f32) (harg5 : arg5.IsWhole)
    (v0 : Vec Ideal S1x16x128 .f32) (v3 : IVec S1x16 32) (X3 : BufTy.Contents (Elt Ideal) arg3.view.ty) (X4 : BufTy.Contents (Elt Ideal) arg4.view.ty) :
    ∀ (n : ℕ) (p : View.Piece (Elt Ideal) S16384x8 .f32),
      p ∈ pb_k0_t1 (F := Ideal) 𝒱 c bd i arg2 harg2 arg3 harg3 arg4 harg4 arg5 harg5 v0 v3 X3 X4 n →
      ∃ k : Fin k0_t1_loop.trips, p ∈ tripL_k0_t1 (F := Ideal) 𝒱 c bd i arg2 harg2 arg3 harg3 arg4 harg4 arg5 harg5 v0 v3 X3 X4 k
  | 0, p, h => by rw [pb_k0_t1.eq_1] at h; exact absurd h List.not_mem_nil
  | n + 1, p, h => by
    rw [pb_k0_t1.eq_2] at h
    unfold pb_k0_t1Step at h
    split at h
    · rename_i hn
      rcases List.mem_append.mp h with h | h
      · exact ⟨⟨n, hn⟩, h⟩
      · exact mem_pb 𝒱 c bd i arg2 harg2 arg3 harg3 arg4 harg4 arg5 harg5 v0 v3 X3 X4 n p h
    · exact mem_pb 𝒱 c bd i arg2 harg2 arg3 harg3 arg4 harg4 arg5 harg5 v0 v3 X3 X4 n p h

/-- A chunk's value at `(r, cc)` is the block's value at `(q, cc)` as soon as the chunk's code `r` is the block's code `q`
    and the chunk's scale for `r` is the block's scale for `q`. -/
theorem chunk_eq_blk (x0 : Vec Ideal S1x16x128 .f32) (x1 : Vec Ideal S1x1x16384 .i32) (x2 : Vec Ideal S32x1 .f32)
    (v : Vec Ideal S1x1x4096 .i32) (s : Vec Ideal S8x1 .f32) (r : Fin 4096) (q : Fin 16384) (cc : Fin 8)
    (hv : v (ix3 (0 : Fin 1) (0 : Fin 1) r) = x1 (ix3 (0 : Fin 1) (0 : Fin 1) q))
    (hs : s (ix2 (⟨r.val / 512, by have := r.isLt; omega⟩ : Fin 8) (0 : Fin 1))
      = x2 (ix2 (⟨q.val / 512, by have := q.isLt; omega⟩ : Fin 32) (0 : Fin 1))) :
    Cert.Spec.chunkK x0 v s r cc = Cert.Spec.blkK x0 x1 x2 q cc := by
  unfold Cert.Spec.chunkK Cert.Spec.blkK
  simp only [hv, hs]

/-- The codes of trip `k`, read at `r`: code `4096 k + r` of the block. -/
theorem codes_at (arg3 : Memref sig .tc .vmem S1x1x16384 .i32) (harg3 : arg3.IsWhole) (x1 : Vec Ideal S1x1x16384 .i32)
    (k : Fin k0_t1_loop.trips) (r : Fin 4096) (h : 4096 * k.val + r.val < 16384) :
    View.readAt (Elt Ideal) arg3.view (Rect.unit (s := S1x1x16384) (k0_off1 k) S1x1x4096.size (k0_off1_inb k)).toLoadRect (harg3.unread x1)
        (ix3 (0 : Fin 1) (0 : Fin 1) r)
      = x1 (ix3 (0 : Fin 1) (0 : Fin 1) (⟨4096 * k.val + r.val, h⟩ : Fin 16384)) := by
  rw [View.readAt_eq_ld, harg3.read_unread]
  show x1 _ = x1 _
  congr 1
  funext a
  apply Fin.ext
  match a with
  | ⟨0, _⟩ => simp only [LoadRect.idx_apply, Rect.off_unit, Rect.stride_unit, off1_eq, Nat.one_mul]; rfl
  | ⟨1, _⟩ => simp only [LoadRect.idx_apply, Rect.off_unit, Rect.stride_unit, off1_eq, Nat.one_mul]; rfl
  | ⟨2, _⟩ => simp only [LoadRect.idx_apply, Rect.off_unit, Rect.stride_unit, off1_eq, Nat.one_mul]; rfl

/-- The scales of trip `k`, read at row `r / 512`: row `8 k + r / 512 = (4096 k + r) / 512` of the block's scales. -/
theorem scales_at (arg4 : Memref sig .tc .vmem S32x1 .f32) (harg4 : arg4.IsWhole) (x2 : Vec Ideal S32x1 .f32)
    (k : Fin k0_t1_loop.trips) (r : Fin 4096) (h : 4096 * k.val + r.val < 16384) :
    View.readAt (Elt Ideal) arg4.view (Rect.unit (s := S32x1) (k0_off2 k) S8x1.size (k0_off2_inb k)).toLoadRect (harg4.unread x2)
        (ix2 (⟨r.val / 512, by have := r.isLt; omega⟩ : Fin 8) (0 : Fin 1))
      = x2 (ix2 (⟨(4096 * k.val + r.val) / 512, by omega⟩ : Fin 32) (0 : Fin 1)) := by
  rw [View.readAt_eq_ld, harg4.read_unread]
  show x2 _ = x2 _
  congr 1
  funext a
  apply Fin.ext
  match a with
  | ⟨0, _⟩ =>
    simp only [LoadRect.idx_apply, Rect.off_unit, Rect.stride_unit, off2_eq, Nat.one_mul]
    show 8 * k.val + r.val / 512 = (4096 * k.val + r.val) / 512
    omega
  | ⟨1, _⟩ => simp only [LoadRect.idx_apply, Rect.off_unit, Rect.stride_unit, off2_eq, Nat.one_mul]; rfl

/-- Entry `(r, cc)` of trip `k`'s rectangle is entry `(4096 k + r, cc)` of the output block. -/
theorem emb_at (k : Fin k0_t1_loop.trips) (r : Fin 4096) (cc : Fin 8) (h : 4096 * k.val + r.val < 16384) :
    (Rect.unit (s := S16384x8) (k0_off3 k) S4096x8.size (k0_off3_inb k)).emb (ix2 r cc)
      = ix2 (⟨4096 * k.val + r.val, h⟩ : Fin 16384) cc := by
  funext a
  apply Fin.ext
  match a with
  | ⟨0, _⟩ => simp only [Rect.emb_apply, Rect.off_unit, Rect.stride_unit, off3_eq, Nat.one_mul]; rfl
  | ⟨1, _⟩ =>
    simp only [Rect.emb_apply, Rect.off_unit, Rect.stride_unit, off3_eq, Nat.one_mul]
    show 0 + cc.val = cc.val
    omega

/-- Trip `k`'s payload at an entry of its rectangle is the block's function at the entry's place in the block. -/
theorem piece_value (arg3 : Memref sig .tc .vmem S1x1x16384 .i32) (harg3 : arg3.IsWhole) (arg4 : Memref sig .tc .vmem S32x1 .f32) (harg4 : arg4.IsWhole)
    (x0 : Vec Ideal S1x16x128 .f32) (x1 : Vec Ideal S1x1x16384 .i32) (x2 : Vec Ideal S32x1 .f32)
    (hx1 : ∀ q : Fin 16384, (x1 (ix3 (0 : Fin 1) (0 : Fin 1) q)).toNat < 256)
    (k : Fin k0_t1_loop.trips) (x : S4096x8.Idx) :
    k0_pay3 (F := Ideal) (k0_pay1 x0) (iota .tc S1x16 32 [1] iota_S1x16_d1_w32) k0_pay2
        (View.readAt (Elt Ideal) arg3.view (Rect.unit (s := S1x1x16384) (k0_off1 k) S1x1x4096.size (k0_off1_inb k)).toLoadRect (harg3.unread x1))
        (View.readAt (Elt Ideal) arg4.view (Rect.unit (s := S32x1) (k0_off2 k) S8x1.size (k0_off2_inb k)).toLoadRect (harg4.unread x2)) x
      = Gblk x0 x1 x2 ((Rect.unit (s := S16384x8) (k0_off3 k) S4096x8.size (k0_off3_inb k)).emb x) := by
  obtain ⟨r, cc, rfl⟩ : ∃ (r : Fin 4096) (cc : Fin 8), x = ix2 r cc := ⟨x 0, x 1, eq_ix2 x⟩
  have hk : k.val < 4 := Nat.lt_of_lt_of_eq k.isLt trips_eq
  have h : 4096 * k.val + r.val < 16384 := by have := r.isLt; omega
  have hr : (View.readAt (Elt Ideal) arg3.view (Rect.unit (s := S1x1x16384) (k0_off1 k) S1x1x4096.size (k0_off1_inb k)).toLoadRect (harg3.unread x1)
      (ix3 (0 : Fin 1) (0 : Fin 1) r)).toNat < 256 := by
    rw [codes_at arg3 harg3 x1 k r h]; exact hx1 _
  refine (pay3_apply x0 _ _ r cc hr).trans ?_
  rw [emb_at k r cc h]
  exact chunk_eq_blk x0 x1 x2 _ _ r ⟨4096 * k.val + r.val, h⟩ cc (codes_at arg3 harg3 x1 k r h) (scales_at arg4 harg4 x2 k r h)

/-- What the first call's body leaves in its output block, entry by entry: the four trips' rectangles tile the block and
    each holds the block's function, so the block holds that function everywhere. -/
theorem out0_value (c : Dev nD) (i : grid0.Coords) (arg2 : Memref sig .tc .vmem S1x16x128 .f32) (harg2 : arg2.IsWhole)
    (arg3 : Memref sig .tc .vmem S1x1x16384 .i32) (harg3 : arg3.IsWhole) (arg4 : Memref sig .tc .vmem S32x1 .f32) (harg4 : arg4.IsWhole)
    (arg5 : Memref sig .tc .vmem S16384x8 .f32) (harg5 : arg5.IsWhole)
    (x0 : Vec Ideal S1x16x128 .f32) (x1 : Vec Ideal S1x1x16384 .i32) (x2 : Vec Ideal S32x1 .f32)
    (hx1 : ∀ q : Fin 16384, (x1 (ix3 (0 : Fin 1) (0 : Fin 1) q)).toNat < 256) (q : Fin 16384) (cc : Fin 8) :
    out0_A_3 (F := Ideal) c i arg2 harg2 arg3 harg3 arg4 harg4 arg5 harg5 x0 x1 x2 (ix2 q cc)
      = Cert.Spec.blkK x0 x1 x2 q cc := by
  unfold out0_A_3
  rw [View.read_writes_eq_canon _ _ _ (cover0_A_3 c i arg2 harg2 arg3 harg3 arg4 harg4 arg5 harg5 x0 x1 x2)]
  refine (View.canon_apply_of_pieces (Gblk x0 x1 x2) _ ?_ (ix2 q cc)
    (cover0_A_3 c i arg2 harg2 arg3 harg3 arg4 harg4 arg5 harg5 x0 x1 x2 (ix2 q cc))).trans rfl
  intro p hp x
  rw [run_pieces] at hp
  obtain ⟨k, hk⟩ := mem_pb _ _ _ _ _ _ _ _ _ _ _ _ _ _ _ _ _ p hp
  rw [trip_piece] at hk
  obtain rfl := List.mem_singleton.mp hk
  exact piece_value arg3 harg3 arg4 harg4 x0 x1 x2 hx1 k x

end Cert.KernelIdeal.Val

end
-- ==== Proof.Region0.lean ====
/-
  The first call's result array after its 344 grid points, entry by entry.

  The grid is 86 x 4, walked row-major, so point `t` (0 ≤ t < 344) has coordinates `(t / 4, t % 4)` and every index map is a
  function of `t` alone: the codebook block is codebook `(t / 4) / 43 = t / 172`; the code block is columns
  `16384 (4 ((t / 4) % 43) + t % 4) = 16384 (t % 172)` onward of code row `t / 172`; the scale block is rows `32 t … 32 t + 31`;
  the result block is rows `16384 t … 16384 t + 16383`.  Since 172 · 16384 = 2818048, row `16384 t + q` of the result is code
  number `16384 t + q` counted over both code rows: its codebook is `(16384 t + q) / 2818048 = t / 172`, its column is
  `(16384 t + q) % 2818048 = 16384 (t % 172) + q`, and its scale row is `(16384 t + q) / 512 = 32 t + q / 512`.  So what a point
  writes back, one block's value at the three staged blocks, is its 16384 rows of ONE function of the three arrays, and the
  344 blocks tile the 5636096 rows (the point that covers row `r` is `r / 16384`).
-/
import proofs.«427181_j77919296684642_3_alg».proof.Proof.Pieces0

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

section
variable (V : (c : Dev nD) → (b : Ref sig .tc) → Buf (Elt Ideal) ((c : Thread nD τ).loc b))

/-- The four index maps at point `t`, as functions of `t`: decided over the 344 points. -/
theorem idx_facts : ∀ t : Fin cfg0.N,
    win0_0.index t (0 : Fin 3) = t.val / 172 ∧ win0_0.index t (1 : Fin 3) = 0 ∧ win0_0.index t (2 : Fin 3) = 0
    ∧ win0_1.index t (0 : Fin 3) = t.val / 172 ∧ win0_1.index t (1 : Fin 3) = 0 ∧ win0_1.index t (2 : Fin 3) = t.val % 172
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three operand arrays as the region finds them, and their blocks at a grid point, at their literal types. -/
abbrev cbArr (c : Dev nD) : Vec Ideal S2x16x128 .f32 := V c main_v2
abbrev cdArr (c : Dev nD) : Vec Ideal S2x1x2818048 .i32 := V c main_v3
abbrev scArr (c : Dev nD) : Vec Ideal S11008x1 .f32 := V c main_arg2
abbrev cbBlk (c : Dev nD) (t : Fin cfg0.N) : Vec Ideal S1x16x128 .f32 := iblk0 V c 0 t
abbrev cdBlk (c : Dev nD) (t : Fin cfg0.N) : Vec Ideal S1x1x16384 .i32 := iblk0 V c 1 t
abbrev scBlk (c : Dev nD) (t : Fin cfg0.N) : Vec Ideal S32x1 .f32 := iblk0 V c 2 t

/-- Point `t`'s codebook block is codebook `t / 172` (172 blocks of 16384 codes make one codebook's 2818048 codes). -/
theorem cbBlk_apply (c : Dev nD) (t : Fin cfg0.N) (y : S1x16x128.Idx) (k : S2x16x128.Idx)
    (hk0 : (k 0).val = t.val / 172) (hk1 : (k 1).val = (y 1).val) (hk2 : (k 2).val = (y 2).val) :
    cbBlk V c t y = cbArr V c k := by
  obtain ⟨e0, e1, e2, -⟩ := idx_facts t
  unfold cbBlk iblk0
  rw [View.read_apply]
  show V c main_v2 _ = V c main_v2 _
  congr 1
  funext a
  apply Fin.ext
  have h0 : (y 0).val < 1 := (y 0).isLt
  match a with
  | ⟨0, _⟩ => show win0_0.index t (0 : Fin 3) * 1 + 1 * (y 0).val = (k 0).val; rw [e0, hk0]; omega
  | ⟨1, _⟩ => show win0_0.index t (1 : Fin 3) * 16 + 1 * (y 1).val = (k 1).val; rw [e1, hk1]; omega
  | ⟨2, _⟩ => show win0_0.index t (2 : Fin 3) * 128 + 1 * (y 2).val = (k 2).val; rw [e2, hk2]; omega

/-- Point `t`'s code block is columns `16384 (t % 172) …` of row `t / 172` of the code array. -/
theorem cdBlk_apply (c : Dev nD) (t : Fin cfg0.N) (y : S1x1x16384.Idx) (k : S2x1x2818048.Idx)
    (hk0 : (k 0).val = t.val / 172) (hk2 : (k 2).val = t.val % 172 * 16384 + (y 2).val) :
    cdBlk V c t y = cdArr V c k := by
  obtain ⟨-, -, -, e0, e1, e2, -⟩ := idx_facts t
  unfold cdBlk iblk0
  rw [View.read_apply]
  show V c main_v3 _ = V c main_v3 _
  congr 1
  funext a
  apply Fin.ext
  have h0 : (y 0).val < 1 := (y 0).isLt
  have h1 : (y 1).val < 1 := (y 1).isLt
  have g1 : (k 1).val < 1 := (k 1).isLt
  match a with
  | ⟨0, _⟩ => show win0_1.index t (0 : Fin 3) * 1 + 1 * (y 0).val = (k 0).val; rw [e0, hk0]; omega
  | ⟨1, _⟩ => show win0_1.index t (1 : Fin 3) * 1 + 1 * (y 1).val = (k 1).val; rw [e1]; omega
  | ⟨2, _⟩ => show win0_1.index t (2 : Fin 3) * 16384 + 1 * (y 2).val = (k 2).val; rw [e2, hk2]; omega

/-- Point `t`'s scale block is rows `32 t … 32 t + 31` of the scale column. -/
theorem scBlk_apply (c : Dev nD) (t : Fin cfg0.N) (y : S32x1.Idx) (k : S11008x1.Idx)
    (hk0 : (k 0).val = 32 * t.val + (y 0).val) :
    scBlk V c t y = scArr V c k := by
  obtain ⟨-, -, -, -, -, -, e0, e1, -⟩ := idx_facts t
  unfold scBlk iblk0
  rw [View.read_apply]
  show V c main_arg2 _ = V c main_arg2 _
  congr 1
  funext a
  apply Fin.ext
  have h1 : (y 1).val < 1 := (y 1).isLt
  have g1 : (k 1).val < 1 := (k 1).isLt
  match a with
  | ⟨0, _⟩ => show win0_2.index t (0 : Fin 2) * 32 + 1 * (y 0).val = (k 0).val; rw [e0, hk0]; omega
  | ⟨1, _⟩ => show win0_2.index t (1 : Fin 2) * 1 + 1 * (y 1).val = (k 1).val; rw [e1]; omega

/-- Row `q`, number `cc` of what point `t` leaves in the result's buffer is number `cc` of code `16384 t + q`:
    the block's codebook is codebook `(16384 t + q) / 2818048 = t / 172`, its code `q` is column
    `(16384 t + q) % 2818048 = 16384 (t % 172) + q` of that row, and its scale `q / 512` is row `32 t + q / 512 = (16384 t + q) / 512`. -/
theorem out_at (c : Dev nD) (hV : ∀ j : S2x1x2818048.Idx, (cdArr V c j).toNat < 256) (t : Fin cfg0.N)
    (q : Fin 16384) (cc : Fin 8) (Q : Fin 5636096) (hQ : Q.val = 16384 * t.val + q.val) :
    outsAt0 V c t (ix2 q cc) = Cert.Spec.deqK (cbArr V c) (cdArr V c) (scArr V c) Q cc := by
  have ht : t.val < 344 := lt_of_lt_of_eq t.isLt N_0
  have hq : q.val < 16384 := q.isLt
  have hcd : ∀ q' : Fin 16384, cdBlk V c t (ix3 (0 : Fin 1) (0 : Fin 1) q')
      = cdArr V c (ix3 (⟨t.val / 172, by omega⟩ : Fin 2) (0 : Fin 1) (⟨t.val % 172 * 16384 + q'.val, by have := q'.isLt; omega⟩ : Fin 2818048)) :=
    fun q' => cdBlk_apply V c t _ _ rfl rfl
  unfold outsAt0
  refine (out0_value c (grid0.coords t) (ms0_0 t) (hs0_0 t) (ms0_1 t) (hs0_1 t) (ms0_2 t) (hs0_2 t) (ms0_3 t) (hs0_3 t)
    (cbBlk V c t) (cdBlk V c t) (scBlk V c t) (fun q' => by rw [hcd q']; exact hV _) q cc).trans ?_
  unfold Cert.Spec.blkK Cert.Spec.deqK Cert.Spec.codeK
  have e : cdArr V c (ix3 (⟨Q.val / 2818048, by have := Q.isLt; omega⟩ : Fin 2) (0 : Fin 1) (⟨Q.val % 2818048, Nat.mod_lt _ (by decide)⟩ : Fin 2818048))
      = cdBlk V c t (ix3 (0 : Fin 1) (0 : Fin 1) q) :=
    (cdBlk_apply V c t _ _ (by show Q.val / 2818048 = t.val / 172; omega) (by show Q.val % 2818048 = t.val % 172 * 16384 + q.val; omega)).symm
  congr 1
  · exact cbBlk_apply V c t _ _ (by show Q.val / 2818048 = t.val / 172; omega)
      (congrArg (fun v : BitVec 32 => v.toNat % 256 / 16) e)
      (congrArg (fun v : BitVec 32 => v.toNat % 256 % 16 * 8 + cc.val) e)
  · exact scBlk_apply V c t _ _ (by show Q.val / 512 = 32 * t.val + q.val / 512; omega)

/-- The result array's contents: entry `(r, n)` is number `n` of code `r`. -/
abbrev deqArr (c : Dev nD) : Vec Ideal S5636096x8 .f32 := fun y =>
  Cert.Spec.deqK (cbArr V c) (cdArr V c) (scArr V c) (⟨(y 0).val, idx2_lt0 y⟩ : Fin 5636096) (⟨(y 1).val, idx2_lt1 y⟩ : Fin 8)

/-- What point `t` writes back is rows `16384 t … 16384 t + 16383` of `deqArr`. -/
theorem flushed_eq (c : Dev nD) (hV : ∀ j : S2x1x2818048.Idx, (cdArr V c j).toNat < 256) (t : Fin cfg0.N) :
    (dat0 (F := Ideal) V c).flushed 3 t = ((cfg0.win 3).blk t).view.read (Elt Ideal) (deqArr V c) := by
  obtain ⟨-, -, -, -, -, -, -, -, e0, e1⟩ := idx_facts t
  have ht : t.val < 344 := lt_of_lt_of_eq t.isLt N_0
  show (cfg0.win 3).cut (grid0.coords t) ((dat0 (F := Ideal) V c).after 3 t) = _
  rw [after0_3]
  funext y
  have hy0 : (y 0).val < 16384 := (y 0).isLt
  have hy1 : (y 1).val < 8 := (y 1).isLt
  rw [View.read_apply]
  refine Eq.trans ?_ ((out_at V c hV t ⟨(y 0).val, hy0⟩ ⟨(y 1).val, hy1⟩ ⟨16384 * t.val + (y 0).val, by omega⟩ rfl).trans ?_)
  · show outsAt0 V c t _ = outsAt0 V c t _
    congr 1
    funext a
    match a with
    | ⟨0, _⟩ => rfl
    | ⟨1, _⟩ => rfl
  · show Cert.Spec.deqK (cbArr V c) (cdArr V c) (scArr V c) _ _ = Cert.Spec.deqK (cbArr V c) (cdArr V c) (scArr V c) _ _
    congr 1 <;> apply Fin.ext
    · show 16384 * t.val + (y 0).val = win0_3.index t (0 : Fin 2) * 16384 + 1 * (y 0).val; rw [e0]; omega
    · show (y 1).val = win0_3.index t (1 : Fin 2) * 8 + 1 * (y 1).val; rw [e1]; omega

/-- Row `r` of the result lies in the block of point `r / 16384`. -/
theorem cover (i : S5636096x8.Idx) :
    ∃ t : Fin cfg0.N, (cfg0.win 3).flush t = true ∧ i ∈ ((cfg0.win 3).blk t).view.set := by
  have hi0 : (i 0).val < 5636096 := idx2_lt0 i
  have hi1 : (i 1).val < 8 := idx2_lt1 i
  obtain ⟨t, htv⟩ : ∃ t : Fin cfg0.N, t.val = (i 0).val / 16384 :=
    ⟨⟨(i 0).val / 16384, lt_of_lt_of_eq (by omega) N_0.symm⟩, rfl⟩
  obtain ⟨-, -, -, -, -, -, -, -, e0, e1⟩ := idx_facts t
  refine ⟨t, flush0_3 t, ?_⟩
  show i ∈ ((View.whole main_v4).slice (win0_3.rect t)).set
  rw [View.set_slice_whole, Rect.mem_set_unit]
  intro a
  match a with
  | ⟨0, _⟩ =>
    show win0_3.index t (0 : Fin 2) * 16384 ≤ (i 0).val ∧ (i 0).val < win0_3.index t (0 : Fin 2) * 16384 + 16384
    rw [e0]; omega
  | ⟨1, _⟩ =>
    show win0_3.index t (1 : Fin 2) * 8 ≤ (i 1).val ∧ (i 1).val < win0_3.index t (1 : Fin 2) * 8 + 8
    rw [e1]; omega

end

/-- The result array after the last point is the de-quantized code table, entry by entry. -/
theorem region0_value (V : (c : Dev nD) → (b : Ref sig .tc) → Buf (Elt Ideal) ((c : Thread nD τ).loc b)) (c : Dev nD)
    (hV : ∀ j : S2x1x2818048.Idx, ((V c main_v3 : Vec Ideal S2x1x2818048 .i32) j).toNat < 256) :
    ((dat0 (F := Ideal) V c).arrAt 3 cfg0.N : Vec Ideal S5636096x8 .f32)
      = fun y => Cert.Spec.deqK (V c main_v2 : Vec Ideal S2x16x128 .f32) (V c main_v3 : Vec Ideal S2x1x2818048 .i32)
          (V c main_arg2 : Vec Ideal S11008x1 .f32) (⟨(y 0).val, idx2_lt0 y⟩ : Fin 5636096) (⟨(y 1).val, idx2_lt1 y⟩ : Fin 8) :=
  (dat0 (F := Ideal) V c).arrAt_eq_of_cover 3 (deqArr V c) (fun t _ => flushed_eq V c hV t) cover

end Cert.KernelIdeal.Val

end
-- ==== Proof.Region1.lean ====
import proofs.«427181_j77919296684642_3_alg».proof.Proof.Gen.KernelIdeal.Frame
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-! ## The body's matmul read at an index

The contraction of a [128,32] by a [32,11008] operand over the one shared axis: the left operand's index at output
index `i` and contraction index `q` is `(i 0, q)`, the right operand's is `(q, i 1)`. -/

theorem lr_lhs_0 (i : S128x11008.Idx) (q : dot_S128x32_S32x11008_S128x11008_1_0_0_1_n_n.contr.Idx) :
    (dot_S128x32_S32x11008_S128x11008_1_0_0_1_n_n.lhsIdx i q 0).val = (i 0).val := by
  unfold DotDims.lhsIdx
  rw [dif_neg (show ¬(0 : Fin S128x32.rank) ∈ dot_S128x32_S32x11008_S128x11008_1_0_0_1_n_n.lhsBatch by decide), dif_pos (show (0 : Fin S128x32.rank) ∈ dot_S128x32_S32x11008_S128x11008_1_0_0_1_n_n.lhsNonContracting by decide)]
  rfl
theorem lr_lhs_1 (i : S128x11008.Idx) (q : dot_S128x32_S32x11008_S128x11008_1_0_0_1_n_n.contr.Idx) :
    (dot_S128x32_S32x11008_S128x11008_1_0_0_1_n_n.lhsIdx i q 1).val = (q ⟨0, by decide⟩).val :=
  dot_S128x32_S32x11008_S128x11008_1_0_0_1_n_n.lhsIdx_val_of_single rfl i q
theorem lr_rhs_0 (i : S128x11008.Idx) (q : dot_S128x32_S32x11008_S128x11008_1_0_0_1_n_n.contr.Idx) :
    (dot_S128x32_S32x11008_S128x11008_1_0_0_1_n_n.rhsIdx i q 0).val = (q ⟨0, by decide⟩).val :=
  dot_S128x32_S32x11008_S128x11008_1_0_0_1_n_n.rhsIdx_val_of_single rfl i q
theorem lr_rhs_1 (i : S128x11008.Idx) (q : dot_S128x32_S32x11008_S128x11008_1_0_0_1_n_n.contr.Idx) :
    (dot_S128x32_S32x11008_S128x11008_1_0_0_1_n_n.rhsIdx i q 1).val = (i 1).val := by
  unfold DotDims.rhsIdx
  rw [dif_neg (show ¬(1 : Fin S32x11008.rank) ∈ dot_S128x32_S32x11008_S128x11008_1_0_0_1_n_n.rhsBatch by decide), dif_pos (show (1 : Fin S32x11008.rank) ∈ dot_S128x32_S32x11008_S128x11008_1_0_0_1_n_n.rhsNonContracting by decide)]
  rfl

/-- Into a zero accumulator the matmul at `(r, j)` is the plain sum of products over the shared axis. -/
theorem lr_mm_at (l : FVec Ideal S128x32 .bf16) (w : FVec Ideal S32x11008 .bf16) (r : Fin 128) (j : Fin 11008) :
    matmul dot_S128x32_S32x11008_S128x11008_1_0_0_1_n_n none l w (constant S128x11008 .f32 0x00000000#32) (ix2 r j)
      = ∑ k : Fin 32, l (ix2 r k) * w (ix2 k j) := by
  simp only [matmul]
  rw [Ideal.matmul_constant_zero_apply, ← Equiv.sum_comp (ValueIdx.contrEquiv1 dot_S128x32_S32x11008_S128x11008_1_0_0_1_n_n 32 rfl rfl).symm]
  refine Finset.sum_congr rfl fun k _ => ?_
  have hk := ValueIdx.contrEquiv1_symm_val dot_S128x32_S32x11008_S128x11008_1_0_0_1_n_n 32 rfl rfl k
  have el : dot_S128x32_S32x11008_S128x11008_1_0_0_1_n_n.lhsIdx (ix2 r j) ((ValueIdx.contrEquiv1 dot_S128x32_S32x11008_S128x11008_1_0_0_1_n_n 32 rfl rfl).symm k) = ix2 r k := funext fun a => Fin.ext (by
    match a with
    | ⟨0, _⟩ => exact lr_lhs_0 _ _
    | ⟨1, _⟩ => exact (lr_lhs_1 _ _).trans hk)
  have er : dot_S128x32_S32x11008_S128x11008_1_0_0_1_n_n.rhsIdx (ix2 r j) ((ValueIdx.contrEquiv1 dot_S128x32_S32x11008_S128x11008_1_0_0_1_n_n 32 rfl rfl).symm k) = ix2 k j := funext fun a => Fin.ext (by
    match a with
    | ⟨0, _⟩ => exact (lr_rhs_0 _ _).trans hk
    | ⟨1, _⟩ => exact lr_rhs_1 _ _)
  rw [el, er]

/-- The body's stored value at `(r, j)`: the de-quantized block's entry plus the sum of products; the format changes
    are the identity on the extended reals and the shape cast is of a shape to itself. -/
theorem lr_pay_at (x0 : Vec Ideal S128x11008 .f32) (x1 : Vec Ideal S128x32 .f32) (x2 : Vec Ideal S32x11008 .f32)
    (r : Fin 128) (j : Fin 11008) :
    k1_pay1 (F := Ideal) x1 x2 x0 (ix2 r j) = x0 (ix2 r j) + ∑ k : Fin 32, x1 (ix2 r k) * x2 (ix2 k j) := by
  unfold k1_pay1
  rw [addf_apply, shapeCast_self, lr_mm_at]
  rfl

variable (V : (c : Dev nD) → (b : Ref sig .tc) → Buf (Elt Ideal) ((c : Thread nD τ).loc b))

/-- The second call's three operand arrays as it finds them, at their literal types. -/
abbrev aDeq (c : Dev nD) : Vec Ideal S4096x11008 .f32 := V c main_v5
abbrev aL (c : Dev nD) : Vec Ideal S4096x32 .f32 := V c main_arg3
abbrev aR (c : Dev nD) : Vec Ideal S32x11008 .f32 := V c main_arg4

/-! ## The windows' blocks as rows of the arrays

At point `t` the first, second and fourth windows are at block `(t, 0)` — rows `128 t … 128 t + 127` — and the third at
block `(0, 0)`, the whole right factor: decided once over the 32 points. -/

theorem lr_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The three input blocks at point `t`, at their literal types. -/
abbrev lrDeqBlk (c : Dev nD) (t : Fin cfg1.N) : Vec Ideal S128x11008 .f32 := iblk1 V c 0 t
abbrev lrLeftBlk (c : Dev nD) (t : Fin cfg1.N) : Vec Ideal S128x32 .f32 := iblk1 V c 1 t
abbrev lrRightBlk (c : Dev nD) (t : Fin cfg1.N) : Vec Ideal S32x11008 .f32 := iblk1 V c 2 t

/-- Entry `y` of the de-quantized block at `t` is entry `(128 t + y₀, y₁)` of the array. -/
theorem lrDeqBlk_at (c : Dev nD) (t : Fin cfg1.N) (y : S128x11008.Idx) (i : S4096x11008.Idx)
    (h0 : (i 0).val = t.val * 128 + (y 0).val) (h1 : (i 1).val = (y 1).val) :
    lrDeqBlk V c t y = aDeq V c i := by
  obtain ⟨e0, e1, -⟩ := lr_idx_facts t
  unfold lrDeqBlk iblk1
  rw [View.read_apply]
  show V c main_v5 _ = V c main_v5 i
  congr 1
  funext a
  apply Fin.ext
  match a with
  | ⟨0, _⟩ => show win1_0.index t (0 : Fin 2) * 128 + 1 * (y 0).val = (i 0).val; rw [e0, h0]; omega
  | ⟨1, _⟩ => show win1_0.index t (1 : Fin 2) * 11008 + 1 * (y 1).val = (i 1).val; rw [e1, h1]; omega

/-- Entry `y` of the left factor's block at `t` is entry `(128 t + y₀, y₁)` of the left factor. -/
theorem lrLeftBlk_at (c : Dev nD) (t : Fin cfg1.N) (y : S128x32.Idx) (i : S4096x32.Idx)
    (h0 : (i 0).val = t.val * 128 + (y 0).val) (h1 : (i 1).val = (y 1).val) :
    lrLeftBlk V c t y = aL V c i := by
  obtain ⟨-, -, e0, e1, -⟩ := lr_idx_facts t
  unfold lrLeftBlk iblk1
  rw [View.read_apply]
  show V c main_arg3 _ = V c main_arg3 i
  congr 1
  funext a
  apply Fin.ext
  match a with
  | ⟨0, _⟩ => show win1_1.index t (0 : Fin 2) * 128 + 1 * (y 0).val = (i 0).val; rw [e0, h0]; omega
  | ⟨1, _⟩ => show win1_1.index t (1 : Fin 2) * 32 + 1 * (y 1).val = (i 1).val; rw [e1, h1]; omega

/-- The right factor's block at every point is the right factor. -/
theorem lrRightBlk_at (c : Dev nD) (t : Fin cfg1.N) (y : S32x11008.Idx) (i : S32x11008.Idx)
    (h0 : (i 0).val = (y 0).val) (h1 : (i 1).val = (y 1).val) :
    lrRightBlk V c t y = aR V c i := by
  obtain ⟨-, -, -, -, e0, e1, -⟩ := lr_idx_facts t
  unfold lrRightBlk iblk1
  rw [View.read_apply]
  show V c main_arg4 _ = V c main_arg4 i
  congr 1
  funext a
  apply Fin.ext
  match a with
  | ⟨0, _⟩ => show win1_2.index t (0 : Fin 2) * 32 + 1 * (y 0).val = (i 0).val; rw [e0, h0]; omega
  | ⟨1, _⟩ => show win1_2.index t (1 : Fin 2) * 11008 + 1 * (y 1).val = (i 1).val; rw [e1, h1]; omega

/-! ## What a point writes back, and the array after the 32 points -/

/-- The array the region leaves: the de-quantized array plus the product of the two factors, entry by entry. -/
abbrev lowRankSum (c : Dev nD) : Vec Ideal S4096x11008 .f32 := fun i =>
  aDeq V c i + ∑ k : Fin 32, aL V c (ix2 (⟨(i 0).val, idx2_lt0 i⟩ : Fin 4096) k)
      * aR V c (ix2 k (⟨(i 1).val, idx2_lt1 i⟩ : Fin 11008))

/-- The body's stored value at entry `y` of the block at `t` is the array's entry `(128 t + y₀, y₁)`. -/
theorem lr_pay_blk (c : Dev nD) (t : Fin cfg1.N) (y : S128x11008.Idx) (i : S4096x11008.Idx)
    (h0 : (i 0).val = t.val * 128 + (y 0).val) (h1 : (i 1).val = (y 1).val) :
    k1_pay1 (F := Ideal) (lrLeftBlk V c t) (lrRightBlk V c t) (lrDeqBlk V c t) y = lowRankSum V c i := by
  obtain ⟨r, q, rfl⟩ : ∃ (r : Fin 128) (q : Fin 11008), y = ix2 r q := ⟨y 0, y 1, eq_ix2 y⟩
  have h0' : (i 0).val = t.val * 128 + r.val := h0
  have h1' : (i 1).val = q.val := h1
  refine (lr_pay_at _ _ _ r q).trans ?_
  rw [lrDeqBlk_at V c t (ix2 r q) i h0 h1]
  refine congrArg (aDeq V c i + ·) (Finset.sum_congr rfl fun k _ => ?_)
  rw [lrLeftBlk_at V c t (ix2 r k) (ix2 (⟨(i 0).val, idx2_lt0 i⟩ : Fin 4096) k) h0' rfl,
    lrRightBlk_at V c t (ix2 k q) (ix2 k (⟨(i 1).val, idx2_lt1 i⟩ : Fin 11008)) rfl h1']

theorem lr_hz : (![0, 0] : Fin 2 → Nat) = fun _ => 0 := funext fun a => by fin_cases a <;> rfl

/-- What point `t` writes back is block `t` of that array. -/
theorem lr_flushed_eq (c : Dev nD) (t : Fin cfg1.N) :
    (dat1 (F := Ideal) V c).flushed 3 t = ((cfg1.win 3).blk t).view.read (Elt Ideal) (lowRankSum V c) := by
  show (cfg1.win 3).cut (grid1.coords t) ((dat1 V c).after 3 t) = _
  rw [after1_3]
  unfold out1_3
  rw [View.canon_unit_zero lr_hz]
  simp only [View.ld_unit_zero (S := S128x32) lr_hz, View.ld_unit_zero (S := S32x11008) lr_hz,
    View.ld_unit_zero (S := S128x11008) lr_hz]
  obtain ⟨-, -, -, -, -, -, e0, e1⟩ := lr_idx_facts t
  funext y
  rw [View.read_apply]
  refine lr_pay_blk V c t _ _ ?_ ?_
  · show win1_3.index t (0 : Fin 2) * 128 + 1 * (y 0).val = t.val * 128 + (y 0).val
    rw [e0]; omega
  · show win1_3.index t (1 : Fin 2) * 11008 + 1 * (y 1).val = (y 1).val
    rw [e1]; omega

/-- An index of the array is in point `t`'s block iff each coordinate is in the block's range on its axis. -/
theorem lr_mem_blk (t : Fin cfg1.N) (i : S4096x11008.Idx) :
    i ∈ ((cfg1.win 3).blk t).view.set ↔ ∀ a : Fin 2, win1_3.index t a * S128x11008.size a ≤ (i a).val ∧ (i a).val < win1_3.index t a * S128x11008.size a + S128x11008.size a := by
  show i ∈ ((View.whole main_v6).slice (win1_3.rect t)).set ↔ _
  rw [View.set_slice_whole, Rect.mem_set_unit]
  exact Iff.rfl

/-- Every index of the array is in the block of the point its row belongs to: row `r` is in block `r / 128`. -/
theorem lr_cover (i : S4096x11008.Idx) :
    ∃ t : Fin cfg1.N, (cfg1.win 3).flush t = true ∧ i ∈ ((cfg1.win 3).blk t).view.set := by
  have hi0 : (i 0).val < 4096 := idx2_lt0 i
  have hi1 : (i 1).val < 11008 := idx2_lt1 i
  have hN : cfg1.N = 32 := N_1
  let t : Fin cfg1.N := ⟨(i 0).val / 128, by rw [hN]; omega⟩
  have ht : t.val = (i 0).val / 128 := rfl
  obtain ⟨-, -, -, -, -, -, e0, e1⟩ := lr_idx_facts t
  refine ⟨t, flush1_3 t, ?_⟩
  rw [lr_mem_blk]
  intro a
  match a with
  | ⟨0, _⟩ => show win1_3.index t (0 : Fin 2) * 128 ≤ (i 0).val ∧ (i 0).val < win1_3.index t (0 : Fin 2) * 128 + 128; rw [e0, ht]; omega
  | ⟨1, _⟩ => show win1_3.index t (1 : Fin 2) * 11008 ≤ (i 1).val ∧ (i 1).val < win1_3.index t (1 : Fin 2) * 11008 + 11008; rw [e1]; omega

theorem region1_value (c : Dev nD) :
    ((dat1 (F := Ideal) V c).arrAt 3 cfg1.N : Vec Ideal S4096x11008 .f32)
      = fun i => aDeq V c i
          + ∑ k : Fin 32, aL V c (ix2 (⟨(i 0).val, idx2_lt0 i⟩ : Fin 4096) k)
              * aR V c (ix2 k (⟨(i 1).val, idx2_lt1 i⟩ : Fin 11008)) := by
  exact (dat1 (F := Ideal) V c).arrAt_eq_of_cover 3 (lowRankSum V c) (fun t _ => lr_flushed_eq V c t) lr_cover

end Cert.KernelIdeal.Val

end
-- ==== Proof.Glue.lean ====
/-
  The chain of the two calls: the result buffer at the end of the run is the specification's function of the launch arrays.

  Stated once over arbitrary arrays with the facts about them as hypotheses (what each call computes from the arrays it
  finds, how those arrays are read from the launch arrays), then instantiated at the run's boundary contents.
-/
import proofs.«427181_j77919296684642_3_alg».proof.Proof.Host
import proofs.«427181_j77919296684642_3_alg».proof.Proof.Region0
import proofs.«427181_j77919296684642_3_alg».proof.Proof.Region1

noncomputable section

open scoped BigOperators
open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

/-- The number read from the re-laid arrays is the specification's number of the arrays they were re-laid from: a code
    `v` below 256 is found in row `v / 16`, lanes `8 (v % 16) … 8 (v % 16) + 7` of the re-laid codebook, which is row
    `16 (v / 16) + v % 16 = v` of the codebook. -/
theorem deqK_eq_deq (cb : Vec Ideal S2x256x8 .f32) (codes : Vec Ideal S2x2818048 .i32) (sc : Vec Ideal S11008x1 .f32)
    (rhs : Vec Ideal S2x16x128 .f32) (codes3 : Vec Ideal S2x1x2818048 .i32) (sc3 : Vec Ideal S11008x1 .f32)
    (hsc : sc3 = sc)
    (hrhs : ∀ (n : Fin 2) (h : Fin 16) (l : Fin 128), rhs (ix3 n h l)
      = cb (ix3 n (⟨h.val * 16 + l.val / 8, by have := h.isLt; have := l.isLt; omega⟩ : Fin 256) (⟨l.val % 8, Nat.mod_lt _ (by decide)⟩ : Fin 8)))
    (hcodes3 : ∀ (n : Fin 2) (k : Fin 2818048), codes3 (ix3 n (0 : Fin 1) k) = codes (ix2 n k))
    (q : Fin 5636096) (cc : Fin 8) :
    Cert.Spec.deqK rhs codes3 sc3 q cc = Cert.Spec.deq cb codes sc q cc := by
  subst hsc
  have hcode : (Cert.Spec.codeK codes3 q).val
      = (codes (ix2 (⟨q.val / 2818048, by have := q.isLt; omega⟩ : Fin 2) (⟨q.val % 2818048, Nat.mod_lt _ (by decide)⟩ : Fin 2818048))).toNat % 256 := by
    show (codes3 (ix3 _ (0 : Fin 1) _)).toNat % 256 = _
    rw [hcodes3]
  unfold Cert.Spec.deqK Cert.Spec.deq
  rw [hrhs]
  refine congrArg₂ (· * ·) (congrArg cb (funext fun a => ?_)) rfl
  have hc := cc.isLt
  have hv := (Cert.Spec.codeK codes3 q).isLt
  match a with
  | ⟨0, _⟩ => rfl
  | ⟨1, _⟩ => exact Fin.ext ((show (Cert.Spec.codeK codes3 q).val / 16 * 16 + ((Cert.Spec.codeK codes3 q).val % 16 * 8 + cc.val) / 8
        = (Cert.Spec.codeK codes3 q).val by omega).trans hcode)
  | ⟨2, _⟩ => exact Fin.ext (by
      show ((Cert.Spec.codeK codes3 q).val % 16 * 8 + cc.val) % 8 = cc.val
      omega)

/-- The chain of the two calls over the arrays each finds: the second call's result is `Spec.G` of the launch arrays when
    the first call's result is the de-quantized table of the re-laid arrays and the second call finds it re-laid as
    [4096, 11008] beside `L` and `R`. -/
theorem G_of_parts (cb : Vec Ideal S2x256x8 .f32) (codes : Vec Ideal S2x2818048 .i32) (sc : Vec Ideal S11008x1 .f32)
    (L : Vec Ideal S4096x32 .f32) (R : Vec Ideal S32x11008 .f32)
    (rhs : Vec Ideal S2x16x128 .f32) (codes3 : Vec Ideal S2x1x2818048 .i32) (sc3 : Vec Ideal S11008x1 .f32)
    (raw : Vec Ideal S5636096x8 .f32) (deqArr : Vec Ideal S4096x11008 .f32) (L5 : Vec Ideal S4096x32 .f32) (R5 : Vec Ideal S32x11008 .f32)
    (out : Vec Ideal S4096x11008 .f32)
    (hout : out = fun i => deqArr i + ∑ k : Fin 32, L5 (ix2 (⟨(i 0).val, idx2_lt0 i⟩ : Fin 4096) k)
        * R5 (ix2 k (⟨(i 1).val, idx2_lt1 i⟩ : Fin 11008)))
    (hL : L5 = L) (hR : R5 = R)
    (hdeq : ∀ i : S4096x11008.Idx, deqArr i
      = raw (ix2 (⟨((i 0).val * 11008 + (i 1).val) / 8, by have h0 := idx2_lt0 i; have h1 := idx2_lt1 i; omega⟩ : Fin 5636096)
          (⟨((i 0).val * 11008 + (i 1).val) % 8, Nat.mod_lt _ (by decide)⟩ : Fin 8)))
    (hraw : raw = fun y => Cert.Spec.deqK rhs codes3 sc3 (⟨(y 0).val, idx2_lt0 y⟩ : Fin 5636096) (⟨(y 1).val, idx2_lt1 y⟩ : Fin 8))
    (hsc : sc3 = sc)
    (hrhs : ∀ (n : Fin 2) (h : Fin 16) (l : Fin 128), rhs (ix3 n h l)
      = cb (ix3 n (⟨h.val * 16 + l.val / 8, by have := h.isLt; have := l.isLt; omega⟩ : Fin 256) (⟨l.val % 8, Nat.mod_lt _ (by decide)⟩ : Fin 8)))
    (hcodes3 : ∀ (n : Fin 2) (k : Fin 2818048), codes3 (ix3 n (0 : Fin 1) k) = codes (ix2 n k)) :
    out = Cert.Spec.G cb codes sc L R := by
  subst hL hR hout
  funext i
  show deqArr i + _ = _
  rw [hdeq i, hraw]
  unfold Cert.Spec.G
  refine congrArg₂ (· + ·) ?_ rfl
  exact deqK_eq_deq cb codes sc rhs codes3 sc3 hsc hrhs hcodes3 _ _

variable (m : (ℓ : Loc nD τ sig) → Buf (Elt Ideal) ℓ) (ρ : Dev nD → PrngReg)

/-- Every code the first call finds is a code as launched, hence below 256. -/
theorem codes3_eq (c : Dev nD) (hcodes : ∀ j : S2x2818048.Idx, (argCodes m c j).toNat < 256) (n : Fin 2) (k : Fin 2818048) :
    (V3 m ρ c main_v3 : Vec Ideal S2x1x2818048 .i32) (ix3 n (0 : Fin 1) k) = argCodes m c (ix2 n k) :=
  (codes3_apply m ρ c n k).trans (clipped_apply m c _ (hcodes _))

theorem codes3_lt (c : Dev nD) (hcodes : ∀ j : S2x2818048.Idx, (argCodes m c j).toNat < 256)
    (j : S2x1x2818048.Idx) : ((V3 m ρ c main_v3 : Vec Ideal S2x1x2818048 .i32) j).toNat < 256 := by
  obtain ⟨n, z, k, rfl⟩ : ∃ (n : Fin 2) (z : Fin 1) (k : Fin 2818048), j = ix3 n z k := ⟨j 0, j 1, j 2, eq_ix3 j⟩
  obtain rfl : z = 0 := Subsingleton.elim _ _
  exact (congrArg BitVec.toNat (codes3_eq m ρ c hcodes n k)).trans_lt (hcodes _)

/-- THE KERNEL'S VALUE: at the last boundary the result buffer holds the specification's function of the launch arrays. -/
theorem kernel_value (c : Dev nD) (hcodes : ∀ j : S2x2818048.Idx, (argCodes m c j).toNat < 256) :
    (W6 m ρ c (Proc.devRef .tc main_v6) : Vec Ideal S4096x11008 .f32)
      = Cert.Spec.G (argCb m c) (argCodes m c) (argScales m c) (argL m c) (argR m c) :=
  G_of_parts (argCb m c) (argCodes m c) (argScales m c) (argL m c) (argR m c)
    (V3 m ρ c main_v2) (V3 m ρ c main_v3) (V3 m ρ c main_arg2)
    (W4 m ρ c (Proc.devRef .tc main_v4)) (V5 m ρ c main_v5) (V5 m ρ c main_arg3) (V5 m ρ c main_arg4)
    (W6 m ρ c (Proc.devRef .tc main_v6))
    ((W6_arr m ρ c 3).trans (region1_value (V5 m ρ) c))
    (V5_arg3 m ρ c) (V5_arg4 m ρ c)
    (deq_apply m ρ c)
    ((W4_arr m ρ c 3).trans (region0_value (V3 m ρ) c (codes3_lt m ρ c hcodes)))
    (V3_arg2 m ρ c) (rhs_apply m ρ c) (codes3_eq m ρ c hcodes)

end Cert.KernelIdeal.Val

end
-- ==== Proof.RefValue.lean ====
import proofs.«427181_j77919296684642_3_alg».proof.Proof.Gen.ReferenceIdeal.Read
import proofs.«427181_j77919296684642_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.ReferenceIdeal.Read

/-! ## The gather read at an index

The operand is the pair of codebooks [2, 256, 8], the start indices the codes as [2, 2818048, 1]. Axis 0 of the
operand is a batching axis (paired with axis 0 of the start indices), axis 1 is collapsed and is the one the start index
addresses, axis 2 is the offset axis. So result entry (n, k, c) is the operand at (n, r, c) where r is the start
index at (n, k, 0) read signed and clamped into [0, 255]. -/

/-- The start-indices index [n, k, 0] of result index (n, k, c). -/
abbrev siAt (j : S2x2818048x8.Idx) : S2x2818048x1.Idx :=
  fun a => match a with
    | ⟨0, _⟩ => ⟨(j 0).val, (j 0).isLt⟩
    | ⟨1, _⟩ => ⟨(j 1).val, (j 1).isLt⟩
    | ⟨2, _⟩ => ⟨0, Nat.one_pos⟩

/-- The dimension numbers of the gather, under a short name. -/
abbrev gd : GatherDims S2x256x8 S2x2818048x1 S2x2818048x8 := gather_S2x256x8_S2x2818048x1_S2x2818048x8_2_1_0_0_1_2_118

/-- On the batching axis the operand coordinate is the result's first coordinate. -/
theorem gd_axis0 (idx : IVec S2x2818048x1 32) (j : S2x2818048x8.Idx) :
    gd.start j idx 0 + gd.batchCoord j 0 + gd.offCoord j 0 = (j 0).val := by
  rw [GatherDims.start_batching _ _ _ _ (by decide), GatherDims.offCoord_eq_zero _ _ _ (by decide)]
  simp only [Nat.zero_add, Nat.add_zero]
  unfold GatherDims.batchCoord
  rw [dif_pos (by decide)]
  rfl

/-- On the collapsed axis it is the start index, read signed and clamped into [0, 255]. -/
theorem gd_axis1 (idx : IVec S2x2818048x1 32) (j : S2x2818048x8.Idx) :
    gd.start j idx 1 + gd.batchCoord j 1 + gd.offCoord j 1 = min (idx (siAt j)).toInt.toNat 255 := by
  rw [GatherDims.batchCoord_eq_zero _ _ _ (by decide), GatherDims.offCoord_eq_zero _ _ _ (by decide)]
  simp only [Nat.add_zero]
  unfold GatherDims.start
  rw [dif_pos (show (1 : Fin 3) ∈ gd.startIndexMap by decide)]
  have hsi : gd.siIdx j ⟨List.idxOf (1 : Fin 3) gd.startIndexMap, List.idxOf_lt_length_iff.2 (by decide)⟩ = siAt j := by
    funext b; refine Fin.ext ?_
    match b with
    | ⟨0, _⟩ => rfl
    | ⟨1, _⟩ => rfl
    | ⟨2, _⟩ => rfl
  rw [hsi]
  rfl

/-- On the offset axis it is the result's last coordinate. -/
theorem gd_axis2 (idx : IVec S2x2818048x1 32) (j : S2x2818048x8.Idx) :
    gd.start j idx 2 + gd.batchCoord j 2 + gd.offCoord j 2 = (j 2).val := by
  rw [GatherDims.batchCoord_eq_zero _ _ _ (by decide)]
  unfold GatherDims.start
  rw [dif_neg (by decide)]
  simp only [Nat.zero_add, Nat.add_zero]
  unfold GatherDims.offCoord
  rw [dif_pos (by decide)]
  rfl

theorem gather_apply {α : Type} (x : S2x256x8.Idx → α) (idx : IVec S2x2818048x1 32) (j : S2x2818048x8.Idx) :
    Host.gather gather_S2x256x8_S2x2818048x1_S2x2818048x8_2_1_0_0_1_2_118 x idx j
      = x (ix3 (⟨(j 0).val, (j 0).isLt⟩ : Fin 2)
            (⟨min (idx (siAt j)).toInt.toNat 255, by omega⟩ : Fin 256)
            (⟨(j 2).val, (j 2).isLt⟩ : Fin 8)) := by
  unfold Host.gather
  congr 1
  funext a
  refine Fin.ext ?_
  match a with
  | ⟨0, _⟩ => exact gd_axis0 idx j
  | ⟨1, _⟩ => exact gd_axis1 idx j
  | ⟨2, _⟩ => exact gd_axis2 idx j

/-! ## The start indices are the codes

A code below 256 is not negative as a signed word, so the wrap of negative codes (add 256 where the code is below 0)
leaves it alone. -/

theorem codes_wrap (x1 : Vec Ideal S2x2818048 .i32) (hx1 : ∀ j : S2x2818048.Idx, (x1 j).toNat < 256)
    (i : S2x2818048.Idx) : val_main_v4 (F := Ideal) x1 i = x1 i := by
  rw [val_main_v4_apply, val_main_v1_apply, val_main_v0_apply, val_main_c_apply]
  have h : IntOp.cmpi .slt (x1 i) 0#32 = 0#1 := by
    apply eq_zero_of_ne_one
    intro h1
    have h2 := (StableHlo.Predicate.slt_iff_toNat (a := x1 i) (b := 0#32) (by have := hx1 i; omega) (by decide)).mp h1
    exact absurd h2 (by simp)
  rw [h, select_zero]

/-- Read signed and clamped into [0, 255], a code below 256 is itself. -/
theorem clamp_code (w : BitVec 32) (hw : w.toNat < 256) : min w.toInt.toNat 255 = w.toNat % 256 := by
  rw [StableHlo.Predicate.toInt_eq_toNat_of_lt (by omega), Int.toNat_natCast]
  omega

/-- The gathered array at (n, k, c): number c of row codes[n, k] of codebook n. -/
theorem gathered_apply (x0 : Vec Ideal S2x256x8 .f32) (x1 : Vec Ideal S2x2818048 .i32)
    (hx1 : ∀ j : S2x2818048.Idx, (x1 j).toNat < 256) (j : S2x2818048x8.Idx) :
    val_main_v6 (F := Ideal) x0 x1 j
      = x0 (ix3 (⟨(j 0).val, (j 0).isLt⟩ : Fin 2)
            (⟨(x1 (ix2 (⟨(j 0).val, (j 0).isLt⟩ : Fin 2) (⟨(j 1).val, (j 1).isLt⟩ : Fin 2818048))).toNat % 256,
              Nat.mod_lt _ (by decide)⟩ : Fin 256)
            (⟨(j 2).val, (j 2).isLt⟩ : Fin 8)) := by
  unfold val_main_v6
  rw [gather_apply]
  congr 1
  funext a
  match a with
  | ⟨0, _⟩ => rfl
  | ⟨1, _⟩ =>
    refine Fin.ext ?_
    show min (val_main_v5 (F := Ideal) x1 (siAt j)).toInt.toNat 255 = _
    rw [val_main_v5_apply, codes_wrap x1 hx1, clamp_code _ (hx1 _)]
    have e : idx_main_v5 (siAt j) = ix2 (⟨(j 0).val, (j 0).isLt⟩ : Fin 2) (⟨(j 1).val, (j 1).isLt⟩ : Fin 2818048) := by
      funext b
      match b with
      | ⟨0, _⟩ => rfl
      | ⟨1, _⟩ => rfl
    rw [e]
  | ⟨2, _⟩ => rfl

/-! ## The result stage is the specification

Write p = 11008 i + j for the running number of entry (i, j). The two reshapes read the scaled gather at p again
(p / 4096 * 4096 + p % 4096 = p), so the entry is number p % 8 of code p / 8, whose codebook is p / 8 / 2818048, whose
position in that codebook's codes is p / 8 % 2818048 and whose scale is row p / 4096 = p / 8 / 512 of the scales. -/

theorem ref_value (x0 : Vec Ideal S2x256x8 .f32) (x1 : Vec Ideal S2x2818048 .i32) (x2 : Vec Ideal S11008x1 .f32)
    (x3 : Vec Ideal S4096x32 .f32) (x4 : Vec Ideal S32x11008 .f32) (hx1 : ∀ j : S2x2818048.Idx, (x1 j).toNat < 256) :
    val_main_v12 (F := Ideal) x0 x1 x2 x3 x4 = Cert.Spec.G x0 x1 x2 x3 x4 := by
  funext i
  rw [val_main_v12_apply, val_main_v10_apply, val_main_v9_apply, val_main_v7_apply, val_main_v8_apply, val_main_v11_apply,
    gathered_apply x0 x1 hx1, Ideal.addf_def, Ideal.mulf_def]
  unfold Cert.Spec.G Cert.Spec.deq
  have h0 : (i 0).val < 4096 := idx2_lt0 i
  have h1 : (i 1).val < 11008 := idx2_lt1 i
  have c0 : (idx_main_v7 (idx_main_v10 i) 0).val = ((i 0).val * 11008 + (i 1).val) / 8 / 2818048 := by
    show (((i 0).val * 11008 + (i 1).val) / 4096 * 4096 + ((i 0).val * 11008 + (i 1).val) % 4096) / 22544384 = _
    omega
  have c1 : (idx_main_v7 (idx_main_v10 i) 1).val = ((i 0).val * 11008 + (i 1).val) / 8 % 2818048 := by
    show (((i 0).val * 11008 + (i 1).val) / 4096 * 4096 + ((i 0).val * 11008 + (i 1).val) % 4096) / 8 % 2818048 = _
    omega
  have c2 : (idx_main_v7 (idx_main_v10 i) 2).val = ((i 0).val * 11008 + (i 1).val) % 8 := by
    show (((i 0).val * 11008 + (i 1).val) / 4096 * 4096 + ((i 0).val * 11008 + (i 1).val) % 4096) % 8 = _
    omega
  have eC : (ix2 (⟨(idx_main_v7 (idx_main_v10 i) 0).val, (idx_main_v7 (idx_main_v10 i) 0).isLt⟩ : Fin 2)
        (⟨(idx_main_v7 (idx_main_v10 i) 1).val, (idx_main_v7 (idx_main_v10 i) 1).isLt⟩ : Fin 2818048) : S2x2818048.Idx)
      = ix2 (⟨((i 0).val * 11008 + (i 1).val) / 8 / 2818048, by omega⟩ : Fin 2)
          (⟨((i 0).val * 11008 + (i 1).val) / 8 % 2818048, Nat.mod_lt _ (by decide)⟩ : Fin 2818048) := by
    funext b
    match b with
    | ⟨0, _⟩ => exact Fin.ext c0
    | ⟨1, _⟩ => exact Fin.ext c1
  refine congrArg₂ (· + ·) (congrArg₂ (· * ·) (congrArg x0 ?_) (congrArg x2 ?_))
    (Finset.sum_congr rfl fun k _ => congrArg₂ (· * ·) (congrArg x3 ?_) (congrArg x4 ?_))
  · funext a
    match a with
    | ⟨0, _⟩ => exact Fin.ext c0
    | ⟨1, _⟩ => exact Fin.ext (congrArg (fun z => (x1 z).toNat % 256) eC)
    | ⟨2, _⟩ => exact Fin.ext c2
  · funext a
    match a with
    | ⟨0, _⟩ =>
      refine Fin.ext ?_
      show ((i 0).val * 11008 + (i 1).val) / 4096 = ((i 0).val * 11008 + (i 1).val) / 8 / 512
      omega
    | ⟨1, _⟩ => rfl
  · funext a
    match a with
    | ⟨0, _⟩ => rfl
    | ⟨1, _⟩ => rfl
  · funext a
    match a with
    | ⟨0, _⟩ => rfl
    | ⟨1, _⟩ => rfl

end Cert.ReferenceIdeal.RefValue

end
-- ==== Proof.PreCodes.lean ====
import proofs.«427181_j77919296684642_3_alg».proof.Pre_finite_inputs
import proofs.«427181_j77919296684642_3_alg».proof.Proof.Gen.Pre_finite_inputs
import Idealize.ShloMosaic.Lib.ValueIdx
import Idealize.ShloMosaic.Lib.ReduceAll
import Idealize.ShloMosaic.Lib.StableHlo.Predicate

noncomputable section

open scoped BigOperators
open Idealize.ShloMosaic Idealize.ShloMosaic.TcCoe Idealize.SL.Sem Idealize.ShloMosaic.ValueIdx

namespace Cert.Pre_finite_inputs.Codes

open Cert.Pre_finite_inputs

/-- The scalar shape has one index. -/
instance : Subsingleton S_.Idx := ⟨fun a b => funext fun d => d.elim0⟩

/-- A 32-bit word whose signed value lies in [0, 256) has that unsigned value. -/
theorem toNat_lt_of_toInt {w : BitVec 32} (h0 : 0 ≤ w.toInt) (h1 : w.toInt < 256) : w.toNat < 256 := by
  rw [BitVec.toInt_eq_toNat_cond] at h0 h1
  split at h0 <;> omega

theorem codes_lt_of_pre [Cert.Pre_finite_inputs.Facts] (x0 : FVec Ideal S2x256x8 .f32) (x1 : IVec S2x2818048 32) (x2 : FVec Ideal S11008x1 .f32)
    (x3 : FVec Ideal S4096x32 .f32) (x4 : FVec Ideal S32x11008 .f32)
    (h : Cert.Pre_finite_inputs.fn (F := Ideal) x0 x1 x2 x3 x4 = (fun _ => 1#1)) :
    ∀ j : S2x2818048.Idx, (x1 j).toNat < 256 := by
  intro j
  have h0 := congrFun h ValueIdx.ix0
  dsimp only [fn, fn_part1] at h0
  -- the last two conjuncts: every code is at least 0, every code is below 256
  change IntOp.andi _ _ = 1#1 at h0
  obtain ⟨h5, hlt⟩ := IntOp.andi_eq_one.1 h0
  change IntOp.andi _ _ = 1#1 at h5
  obtain ⟨-, hge⟩ := IntOp.andi_eq_one.1 h5
  have hgej : IntOp.cmpi .sge (x1 j) 0#32 = 1#1 := Host.reduce_andi_all _ _ _ _ _ hge j
  have hltj : IntOp.cmpi .slt (x1 j) 256#32 = 1#1 := Host.reduce_andi_all _ _ _ _ _ hlt j
  have a0 := IntOp.cmpi_sge.1 hgej
  have a1 := IntOp.cmpi_slt.1 hltj
  rw [show (0#32 : BitVec 32).toInt = 0 from by decide] at a0
  rw [show (256#32 : BitVec 32).toInt = 256 from by decide] at a1
  exact toNat_lt_of_toInt a0 a1

end Cert.Pre_finite_inputs.Codes

end
-- ==== Proof.lean ====
/-
  The claim: a vector-quantized weight de-quantized and corrected by a rank-32 product, computed by two pipelined calls,
  against the plain gather-scale-reshape-matmul reference, on the extended reals, under "every float input finite and
  every code in [0, 256)".

  Both programs compute `Cert.Spec.G` (Proof/Spec.lean): entry (i, j) of the result is number (11008 i + j) % 8 of code
  (11008 i + j) / 8 — a row of its codebook — times the scale shared by its 512 codes, plus (L · R)[i, j].
  * The reference: its generated run and the read-at-an-index lemmas of its stages, the gather read by hand; on a code in
    [0, 256) the wrap of a negative index and the clamp are both the identity (Proof/RefValue.lean).
  * The kernel: the host glue clips the codes (the identity on [0, 256)) and re-lays the codebooks as [2,16,128]
    (Proof/Host.lean); the first call looks a code `v` up as row `v / 16`, lane group `v % 16`, by a one-hot product
    and a sum over the 16 lane groups (Proof/Payload0.lean), trip by trip (Proof/Pieces0.lean) and block by block
    (Proof/Region0.lean); the second call adds the rank-32 product row block by row block (Proof/Region1.lean); the
    chain of the two calls and the re-layings between them is Proof/Glue.lean.
  * The code range is read off the printed precondition (Proof/PreCodes.lean).
  `preserves` has no entry: the idealized kernel is the kernel's own text read at the ideal instance.
-/
import proofs.«427181_j77919296684642_3_alg».proof.Defs
import proofs.«427181_j77919296684642_3_alg».proof.Proof.Gen.Kernel
import proofs.«427181_j77919296684642_3_alg».proof.Proof.Gen.Kernel.Skeleton
import proofs.«427181_j77919296684642_3_alg».proof.Proof.Gen.Kernel.Loops
import proofs.«427181_j77919296684642_3_alg».proof.Proof.Gen.Kernel.Launch
import proofs.«427181_j77919296684642_3_alg».proof.Proof.Gen.Kernel.Points
import proofs.«427181_j77919296684642_3_alg».proof.Proof.Gen.Kernel.Frame
import proofs.«427181_j77919296684642_3_alg».proof.Proof.Gen.KernelIdeal
import proofs.«427181_j77919296684642_3_alg».proof.Proof.Gen.KernelIdeal.Skeleton
import proofs.«427181_j77919296684642_3_alg».proof.Proof.Gen.KernelIdeal.Loops
import proofs.«427181_j77919296684642_3_alg».proof.Proof.Gen.KernelIdeal.Launch
import proofs.«427181_j77919296684642_3_alg».proof.Proof.Gen.KernelIdeal.Points
import proofs.«427181_j77919296684642_3_alg».proof.Proof.Gen.KernelIdeal.Frame
import proofs.«427181_j77919296684642_3_alg».proof.Proof.Gen.ReferenceIdeal
import proofs.«427181_j77919296684642_3_alg».proof.Proof.Gen.ReferenceIdeal.Run
import proofs.«427181_j77919296684642_3_alg».proof.Proof.Gen.ReferenceIdeal.Read
import proofs.«427181_j77919296684642_3_alg».proof.Proof.Gen.Pre_finite_inputs
import proofs.«427181_j77919296684642_3_alg».proof.Proof.KRun
import proofs.«427181_j77919296684642_3_alg».proof.Proof.Glue
import proofs.«427181_j77919296684642_3_alg».proof.Proof.RefValue
import proofs.«427181_j77919296684642_3_alg».proof.Proof.PreCodes
import Idealize.ShloMosaic.Adequacy
import Idealize.ShloMosaic.Init

noncomputable section

namespace Cert.Proof

open Idealize.ShloMosaic Idealize.ShloMosaic.TcCoe Idealize.SL.Sem

/-- The three frames: the two kernels' generated frame certificates; the reference's generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at `Spec.G` of the launch arrays: the kernel's by `kernel_value`, the reference's by `ref_value`, the
    code range from the precondition, the two memories agreeing on the arguments. -/
theorem algebraic : Cert.algebraic_KernelIdeal_ReferenceIdeal := by
  intro m ρ m' ρ' hpre hagree
  have hcodes : ∀ (c : Dev Cert.KernelIdeal.nD) (j : Cert.KernelIdeal.S2x2818048.Idx),
      (Cert.KernelIdeal.Val.argCodes m c j).toNat < 256 := fun c =>
    Cert.Pre_finite_inputs.Codes.codes_lt_of_pre _ _ _ _ _ (hpre c)
  refine ⟨fun c => Cert.Spec.G (Cert.KernelIdeal.Val.argCb m c) (Cert.KernelIdeal.Val.argCodes m c)
      (Cert.KernelIdeal.Val.argScales m c) (Cert.KernelIdeal.Val.argL m c) (Cert.KernelIdeal.Val.argR m c), ?_, ?_⟩
  · exact (θ_run Cert.KernelIdeal.defs _ _).mono
      (fun _ h c => ⟨(h c).1.trans (Cert.KernelIdeal.Val.kernel_value m ρ c (hcodes c)), (h c).2⟩)
      (Cert.KernelIdeal.GenRun.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, (hagree c).1, (hagree c).2.1, (hagree c).2.2.1, (hagree c).2.2.2.1,
      (hagree c).2.2.2.2]
    exact Cert.ReferenceIdeal.RefValue.ref_value _ _ _ _ _ (hcodes c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
